-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S1024x128 : Shape := ⟨2, ![1024, 128]⟩
abbrev S1024x1 : Shape := ⟨2, ![1024, 1]⟩
abbrev S1x1024 : Shape := ⟨2, ![1, 1024]⟩
abbrev S128x1024 : Shape := ⟨2, ![128, 1024]⟩
abbrev S1024x1024 : Shape := ⟨2, ![1024, 1024]⟩
abbrev S1024 : Shape := ⟨1, ![1024]⟩
abbrev S8192x8192 : Shape := ⟨2, ![8192, 8192]⟩

abbrev nBuf : Space → Nat
  | .hbm => 13
  | .vmem => 25
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x1, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S1x8192, .f32⟩
  | .hbm, ⟨12, _⟩ => ⟨S8192x8192, .f32⟩
  | .local _ .vmem, ⟨0, _⟩ => ⟨S1024x128, .f32⟩
  | .local _ .vmem, ⟨1, _⟩ => ⟨S1024x128, .f32⟩
  | .local _ .vmem, ⟨2, _⟩ => ⟨S1024x128, .f32⟩
  | .local _ .vmem, ⟨3, _⟩ => ⟨S1024x128, .f32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x1, .f32⟩
  | .local _ .vmem, ⟨16, _⟩ => ⟨S1024x1, .f32⟩
  | .local _ .vmem, ⟨17, _⟩ => ⟨S1x1024, .f32⟩
  | .local _ .vmem, ⟨18, _⟩ => ⟨S1x1024, .f32⟩
  | .local _ .vmem, ⟨19, _⟩ => ⟨S1024x1, .f32⟩
  | .local _ .vmem, ⟨20, _⟩ => ⟨S1024x1, .f32⟩
  | .local _ .vmem, ⟨21, _⟩ => ⟨S1x1024, .f32⟩
  | .local _ .vmem, ⟨22, _⟩ => ⟨S1x1024, .f32⟩
  | .local _ .vmem, ⟨23, _⟩ => ⟨S1024x1024, .f32⟩
  | .local _ .vmem, ⟨24, _⟩ => ⟨S1024x1024, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg6_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v31 : BitVec 1 := Scalar.cmpi .eq arg1 c7_i32
  let v32 : BitVec 32 := Scalar.extui v31
  let c0_i32_16 : BitVec 32 := 0#32
  let v33 : BitVec 1 := Scalar.cmpi .ne v32 c0_i32_16
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S1024x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

class Facts₀ : Prop where
  reducesTo_S8192x128_S8192_d1 : S8192x128.ReducesTo [1] S8192
  h_S_ : 0 < S_.numel
  shapeCasts_S8192_S8192x1 : S8192.ShapeCasts S8192x1
  shapeCasts_S8192_S1x8192 : S8192.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  transposes_S1024x128_p1_0_S128x1024 : S1024x128.Transposes [1, 0] S128x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  shapeCasts_S1024_S1024x1 : S1024.ShapeCasts S1024x1
  bcast_S_S8192x1 : S_.BroadcastsInDim S8192x1 (![] : Fin 0 → Fin S8192x1.rank)
  shapeCasts_S8192x1_S1x8192 : S8192x1.ShapeCasts S1x8192
  inb_S1024x1024_S1024x1024_0_0 : ∀ a, (![0, 0] : Fin 2 → Nat) a + S1024x1024.size a ≤ S1024x1024.size a
  h_S1024x1024 : 0 < S1024x1024.numel
  dot_S1024x128_S128x1024_S1024x1024_1_0_0_1_n_n_wf : DotDims.WF S1024x128 S128x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .f32 = 32 ∨ (Rect.block (s := S8192x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x128.size a ≤ S8192x128.size a
  hwx1_0 : ∀ i : grid1.Coords, EltTy.bits .f32 = 32 ∨ (Rect.block (s := S8192x128) S1024x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S8192x128.size a
  hwx1_1 : ∀ i : grid1.Coords, EltTy.bits .f32 = 32 ∨ (Rect.block (s := S8192x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1.size a ≤ S8192x1.size a
  hwx1_2 : ∀ i : grid1.Coords, EltTy.bits .f32 = 32 ∨ (Rect.block (s := S8192x1) S1024x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x8192.size a
  hwx1_3 : ∀ i : grid1.Coords, EltTy.bits .f32 = 32 ∨ (Rect.block (s := S1x8192) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x1.size a ≤ S8192x1.size a
  hwx1_4 : ∀ i : grid1.Coords, EltTy.bits .f32 = 32 ∨ (Rect.block (s := S8192x1) S1024x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1024.size a ≤ S1x8192.size a
  hwx1_5 : ∀ i : grid1.Coords, EltTy.bits .f32 = 32 ∨ (Rect.block (s := S1x8192) S1x1024.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S1024x1024.size a ≤ S8192x8192.size a
  hwx1_6 : ∀ i : grid1.Coords, EltTy.bits .f32 = 32 ∨ (Rect.block (s := S8192x8192) S1024x1024.size (cc1_transform_6 i) (hinb1_6 i)).WholeWords (EltTy.packing .f32)

variable [Facts₀]

def dot_S1024x128_S128x1024_S1024x1024_1_0_0_1_n_n : DotDims S1024x128 S128x1024 S1024x1024 where
  lhsContracting := [1]
  rhsContracting := [0]
  lhsNonContracting := [0]
  rhsNonContracting := [1]
  lhsBatch := []
  rhsBatch := []
  wf := dot_S1024x128_S128x1024_S1024x1024_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1024x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg0) S1024x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1024x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v7) S1024x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x1024.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v9) S1024x1024.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 35
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S_, .f32⟩
  | .hbm, ⟨3, _⟩ => ⟨S8192, .f32⟩
  | .hbm, ⟨4, _⟩ => ⟨S8192x1, .f32⟩
  | .hbm, ⟨5, _⟩ => ⟨S1x8192, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S128x8192, .f32⟩
  | .hbm, ⟨10, _⟩ => ⟨S8192x8192, .f32⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S8192x8192, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192x1, .f32⟩
  | .hbm, ⟨30, _⟩ => ⟨S1x8192, .f32⟩
  | .hbm, ⟨31, _⟩ => ⟨S8192x8192, .f32⟩
  | .hbm, ⟨32, _⟩ => ⟨S8192x8192, .f32⟩
  | .hbm, ⟨33, _⟩ => ⟨S8192x8192, .f32⟩
  | .hbm, ⟨34, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d0 : S8192x8192.ReducesTo [0] S8192
  bcast_S_S8192 : S_.BroadcastsInDim S8192 (![] : Fin 0 → Fin S8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Kernel.Region0Runs.lean ====
/-
  Region 0 of the program: the degree call. Its 64 grid points run through row block i = t / 8 and column block
  j = t % 8. At every point the body adds, to a scratch column carried from point to point, the row sums of the
  similarity block (i, j); at j = 0 it first resets the scratch to zeros, and at j = 7 it copies the scratch into
  the output block, which is written back there and nowhere else. So there are three cases of the body's two
  conditionals: the first column block (A), an inner one (B), the last (C). Each case's run is found by executing
  the body; what the scratch holds after each point is then a recursion on the point.
  Stated at a parameter `V`, the contents of the core's buffers when the region is entered.
-/
import proofs.«138943_j41875931136544_1_alg».proof.Proof.Gen.Kernel.Launch
import proofs.«138943_j41875931136544_1_alg».proof.Proof.Gen.Kernel.Skeleton
import proofs.«138943_j41875931136544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is the first column block": the reset is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the scratch is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block nothing is stored into the output block and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The staging memrefs at a point, the scratch, and the invariant the region starts from -/

abbrev VO0_4 : View sig .tc .vmem S1024x1 .f32 := (Memref.whole cc0_stg4_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch column, a whole scoped buffer of the kernel's own. -/
abbrev scM0_0 : Memref sig .tc .vmem S1024x1 .f32 := Memref.whole cc0_scratch0
abbrev VS0_0 : View sig .tc .vmem S1024x1 .f32 := scM0_0.view

/-- The core's scoped buffers this region neither stages nor uses (the other call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The invariant the region is entered with: the scratch at some contents, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## The body's run, case by case: the pieces each buffer ends with are what the execution finds -/

set_option maxHeartbeats 4000000 in
/-- Case A (first column block): the scratch at anything going in; the output block handed back untouched. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨[], ?_, fun xi4 E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (an inner column block): the scratch at what the point before left; the output block handed back untouched. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨[], ?_, fun xi4 E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (last column block): the scratch at what the point before left; the output block stored. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨?_, ?_, fun E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Region0

end Cert.Kernel.Frm

end
-- ==== Proof.Kernel.Region0.lean ====
/-
  Region 0, continued: what the scratch column and the output block hold after each grid point (a recursion on
  the point: the first column block starts the scratch afresh, every other one continues from what the point
  before left), the proof data, and the body obligation at every point.
-/
import proofs.«138943_j41875931136544_1_alg».proof.Proof.Gen.Kernel.Launch
import proofs.«138943_j41875931136544_1_alg».proof.Proof.Gen.Kernel.Skeleton
import proofs.«138943_j41875931136544_1_alg».proof.Proof.Gen.Kernel.Points
import proofs.«138943_j41875931136544_1_alg».proof.Proof.Kernel.Region0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves: its pieces read back -/

/-- Case A stores nothing into the output block: a placeholder nothing consults. -/
def out0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores cover the scratch column. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the scratch column. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: a placeholder nothing consults. -/
def out0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the scratch column. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store covers the output block. -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the scratch column. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the scratch column hold after each point -/

/-- THE ACCUMULATION: after the body at position `n`, the pair (output block, scratch column): the case the closed
    forms select at `n`, run at the point's blocks, the scratch continuing from what position `n - 1` left unless
    `n` is a first column block. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a first column block. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at an inner column block: over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block: over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scratch at anything; afterwards the scratch at what the
    point before left; beside it the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The proof data of pipeline 0 on core `c`: the arrays as the region finds them; after the body each input's buffer
    at its block and the output's at `outsAt0`'s first component; the invariant `PhiS`; nothing owed. The two
    windows that read the data matrix hold it at the two halves of its full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the closed forms say which case the point is in; the inputs' buffers hold their blocks; the
    invariant hands over the scratch at what the point before left (at anything at entry) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      have hz : t.val ≠ 0 := fun hz => h0 (by rw [hz])
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      have hz : t.val ≠ 0 := fun hz => h0 (by rw [hz])
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scratch back at some contents. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.Kernel.Frm

end
-- ==== Proof.Kernel.Region1.lean ====
/-
  Region 1 of the program: the normalising call. At every grid point the body reads its six input blocks
  (two row blocks of the data matrix, the squared norms as a column and as a row, the inverse root degrees as a
  column and as a row), and stores ONE value, the payload of those six loads, over the whole output block.
  Stated at a parameter `V`, the contents of the core's buffers when the region is entered.
-/
import proofs.«138943_j41875931136544_1_alg».proof.Proof.Gen.Kernel.Launch
import proofs.«138943_j41875931136544_1_alg».proof.Proof.Gen.Kernel.Skeleton
import proofs.«138943_j41875931136544_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rA : Rect S1024x128 := Rect.unit (s := S1024x128) ![0, 0] S1024x128.size inb_S1024x128_S1024x128_0_0
abbrev rB : Rect S1024x1 := Rect.unit (s := S1024x1) ![0, 0] S1024x1.size inb_S1024x1_S1024x1_0_0
abbrev rC : Rect S1x1024 := Rect.unit (s := S1x1024) ![0, 0] S1x1024.size inb_S1x1024_S1x1024_0_0
abbrev rD : Rect S1024x1024 := Rect.unit (s := S1024x1024) ![0, 0] S1024x1024.size inb_S1024x1024_S1024x1024_0_0

/-- What the body leaves in the output block: its one store, of the payload of the six loads. -/
def out1_6 (x0 x1 : Vec F S1024x128 .f32) (x2 : Vec F S1024x1 .f32) (x3 : Vec F S1x1024 .f32) (x4 : Vec F S1024x1 .f32) (x5 : Vec F S1x1024 .f32) : Vec F S1024x1024 .f32 :=
  View.canon [⟨rD, k1_pay1 (View.ld x0 rA) (View.ld x1 rA) (View.ld x2 rB) (View.ld x3 rC) (View.ld x4 rB) (View.ld x5 rC)⟩]

/-- The one store covers the block. -/
theorem cover1_6 (p0 : Vec F S1024x1024 .f32) (y : S1024x1024.Idx) :
    ∃ pc ∈ ([⟨rD, p0⟩] : List (View.Piece (Elt F) S1024x1024 .f32)), y ∈ pc.1.set :=
  View.cover_of_tiled [⟨rD, p0⟩] S1024x1024.size (by rfl) y

/-- Every access being of a whole buffer, the block is just the payload of the six blocks. -/
theorem out1_6_eq (x0 x1 : Vec F S1024x128 .f32) (x2 : Vec F S1024x1 .f32) (x3 : Vec F S1x1024 .f32) (x4 : Vec F S1024x1 .f32) (x5 : Vec F S1x1024 .f32) :
    out1_6 x0 x1 x2 x3 x4 x5 = k1_pay1 x0 x1 x2 x3 x4 x5 := by
  have hz : (![0, 0] : Fin 2 → Nat) = fun _ => 0 := by funext a; fin_cases a <;> rfl
  unfold out1_6
  rw [View.canon_unit_zero hz]
  simp only [View.ld_unit_zero (S := S1024x128) hz, View.ld_unit_zero (S := S1024x1) hz, View.ld_unit_zero (S := S1x1024) hz]

/-! ## The body's triple -/

set_option maxHeartbeats 2000000 in
/-- The body on whole staging buffers, the inputs' at contents `x0 … x5` and the output's at anything, runs to the
    continuation with the inputs' as they were and the output's at `out1_6` of them. -/
theorem sound_kernel1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1x1024 .f32) (harg7 : arg7.IsWhole)
    (arg8 : Memref sig .tc .vmem S1024x1024 .f32) (harg8 : arg8.IsWhole)
    (x0 x1 : Vec F S1024x128 .f32) (x2 : Vec F S1024x1 .f32) (x3 : Vec F S1x1024 .f32) (x4 : Vec F S1024x1 .f32) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__normalize_kernel i arg2 harg2 arg3 harg3 arg4 harg4 arg5 harg5 arg6 harg6 arg7 harg7 arg8 harg8) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The proof data of pipeline 1 on core `c`: the arrays as the region finds them; after the body each input's buffer
    at its block and the output's at `out1_6` of the input blocks; the scoped rest and the generator register as the
    invariant, untouched; nothing owed. The two windows that read the data matrix hold it at the two halves of its
    full share; every other array is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.Kernel.Frm

end
-- ==== Proof.Kernel.Vals.lean ====
/-
  The contents of the core's buffers at each boundary of the program: at launch; after the first host stretch
  (the squared norms as a column and as a row); after the degree call, which changes only the degree column;
  after the second host stretch (the inverse root degrees as a column and as a row); after the normalising call,
  which changes only the result matrix.
-/
import proofs.«138943_j41875931136544_1_alg».proof.Proof.Gen.Kernel.Launch
import proofs.«138943_j41875931136544_1_alg».proof.Proof.Gen.Kernel.Skeleton
import proofs.«138943_j41875931136544_1_alg».proof.Proof.Gen.Kernel.Points
import proofs.«138943_j41875931136544_1_alg».proof.Proof.Gen.Kernel.Regions
import proofs.«138943_j41875931136544_1_alg».proof.Proof.Kernel.Region0
import proofs.«138943_j41875931136544_1_alg».proof.Proof.Kernel.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev U0 (c : Dev nD) : Valuation τ sig (Elt F) := fun b => m (c, b)
/-- After the first host stretch: region 0's entry contents. -/
abbrev U1 (c : Dev nD) : Valuation τ sig (Elt F) := StableHlo.after hostOps0 (U0 m c)
/-- The same read at the TensorCore's references. -/
abbrev T1 : (c : Dev nD) → (b : Ref sig .tc) → Buf (Elt F) ((c : Thread nD τ).loc b) := fun c b => U1 m c b
/-- What the degree call leaves in the degree column. -/
def degArr (c : Dev nD) : Buf (Elt F) ((c : Thread nD τ).loc main_v4) := (dat0 (T1 m) c).arrAt 4 cfg0.N
/-- After the degree call: only the degree column has changed. -/
def U2 (c : Dev nD) : Valuation τ sig (Elt F) := Function.update (U1 m c) main_v4 (degArr m c)
/-- After the second host stretch: region 1's entry contents. -/
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What the normalising call leaves in the result matrix. -/
def resArr (c : Dev nD) : Buf (Elt F) ((c : Thread nD τ).loc main_v9) := (dat1 (T3 m) c).arrAt 6 cfg1.N
/-- After the normalising call: only the result matrix has changed. -/
def U4 (c : Dev nD) : Valuation τ sig (Elt F) := Function.update (U3 m c) main_v9 (resArr m c)

theorem U2_v4 (c : Dev nD) : U2 m c main_v4 = degArr m c := by unfold U2; exact Function.update_self _ _ _
theorem U2_of_ne (c : Dev nD) (r : Ref sig .tc) (h : r ≠ main_v4) : U2 m c r = U1 m c r := by
  unfold U2; exact Function.update_of_ne (StableHlo.devRef_ne_of_ne h) _ _
theorem U4_v9 (c : Dev nD) : U4 m c main_v9 = resArr m c := by unfold U4; exact Function.update_self _ _ _
theorem U4_of_ne (c : Dev nD) (r : Ref sig .tc) (h : r ≠ main_v9) : U4 m c r = U3 m c r := by
  unfold U4; exact Function.update_of_ne (StableHlo.devRef_ne_of_ne h) _ _

/-- The argument array is never written: it ends as launched. -/
theorem U4_main_arg0 (c : Dev nD) : U4 m c main_arg0 = m ((c : Thread nD τ).loc main_arg0) :=
  (U4_of_ne m c main_arg0 (by decide)).trans <| (StableHlo.after_of_writes_sub hostOps1 _ hostOps1_writes (by decide)).trans <|
    (U2_of_ne m c main_arg0 (by decide)).trans <| (StableHlo.after_of_writes_sub hostOps0 _ hostOps0_writes (by decide)).trans rfl

end Cert.Kernel.Frm

end
-- ==== Proof.Kernel.Launch.lean ====
/-
  The run of the whole program: the first host stretch, the degree call, the second host stretch, the normalising
  call, each entered from what the one before left; every weakly fair execution terminates, the result matrix
  ends at what the normalising call's write-backs leave and the argument array ends as launched.
-/
import proofs.«138943_j41875931136544_1_alg».proof.Proof.Gen.Kernel.Launch
import proofs.«138943_j41875931136544_1_alg».proof.Proof.Gen.Kernel.Skeleton
import proofs.«138943_j41875931136544_1_alg».proof.Proof.Gen.Kernel.Points
import proofs.«138943_j41875931136544_1_alg».proof.Proof.Kernel.Vals
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's arrays among the core's unscoped buffers

Both calls read the data matrix through two windows, so the windows' arrays are not distinct buffers: the matrix is
held once, whole, and the two windows hold it at the two halves of its full share. -/

section Arrays

variable (V : (c : Dev nD) → (b : Ref sig .tc) → Buf (Elt F) ((c : Thread nD τ).loc b))

/-- The distinct buffers behind region 0's windows, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2) ∗ (((c : Thread nD τ).loc main_v3) ↦{fullShare} W main_v3) ∗ (((c : Thread nD τ).loc main_v4) ↦{fullShare} W main_v4)) :=
  bigSep_eq_bigSepL_of_eq [main_arg0, main_v2, main_v3, main_v4] (by decide) (by decide) _

/-- Region 0's windowed arrays, one by one: the data matrix twice, at the two halves of its full share; every other
    array whole at the full share. -/
theorem arrays0_eq (c : Dev nD) (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    ((dat0 V c).arrays Fw : sProp 𝕄)
      = iprop((((c : Thread nD τ).loc main_arg0) ↦{fullShare.left} W main_arg0) ∗ (((c : Thread nD τ).loc main_arg0) ↦{fullShare.right} W main_arg0) ∗ (((c : Thread nD τ).loc main_v2) ↦{fullShare} W main_v2) ∗ (((c : Thread nD τ).loc main_v3) ↦{fullShare} W main_v3) ∗ (((c : Thread nD τ).loc main_v4) ↦{fullShare} W main_v4)) := by
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  unfold Dat.arrays
  rw [bigSep_W0, hF 0, hF 1, hF 2, hF 3, hF 4,
    show (dat0 V c).share 0 = fullShare.left from rfl,
    show (dat0 V c).share 1 = fullShare.right from rfl,
    show (dat0 V c).share 2 = fullShare from rfl,
    show (dat0 V c).share 3 = fullShare from rfl,
    show (dat0 V c).share 4 = fullShare from rfl]
  simp only [hs0, hs1, hs2, hs3, hs4]

/-- ENTRY of region 0: the unscoped buffers at `W` are the region's arrays at `W` and the buffers no window reads;
    the data matrix's full share parts into its two halves. -/
theorem split0 (c : Dev nD) (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    (unscopedBufs c W : sProp 𝕄) ⊢ iprop((dat0 V c).arrays Fw ∗ Pipeline.unscopedRest spec0 c W) := by
  have hub : (unscopedBufs c W : sProp 𝕄) = iprop((Pipeline.arrBufs spec0 c W : sProp 𝕄) ∗ Pipeline.unscopedRest spec0 c W) :=
    Pipeline.unscopedBufs_split₀ cfgs 0 winFacts₀0.arr_unscoped c W
  rw [hub, arrBufs0_eq, arrays0_eq V c W Fw hF]
  refine sep_mono ?_ .rfl
  iintro ⟨H0, H1, H2, H3⟩
  ihave H := (pointsTo_share (PosShare.mem_left_op_right fullShare)).1 $$ H0
  icases H with ⟨Hl, Hr⟩
  isplitl [Hl]; · iexact Hl
  isplitl [Hr]; · iexact Hr
  isplitl [H1]; · iexact H1
  isplitl [H2]; · iexact H2
  iexact H3

/-- EXIT of region 0: the arrays at `W'` and the untouched buffers at `W` are the unscoped buffers at `W'`, which
    agrees with `W` off the arrays; the data matrix's two half shares join to the full share. -/
theorem join0 (c : Dev nD) (W W' : (b : Ref sig .tc) → Buf (Elt F) ((c : Thread nD τ).loc b))
    (Fw : (w : Fin cfg0.W) → Buf (Elt F) ((cfg0.win w).arr.view.loc (c.tc : Thread nD τ)))
    (hF : ∀ w, Fw w = W' (Pipeline.arrRef spec0 w))
    (hrest : ∀ b, b ∉ Finset.univ.image (Pipeline.arrRef spec0) → W' b = W b) :
    iprop((dat0 V c).arrays Fw ∗ Pipeline.unscopedRest spec0 c W) ⊢ (unscopedBufs c W' : sProp 𝕄) := by
  have hub : (unscopedBufs c W' : sProp 𝕄) = iprop((Pipeline.arrBufs spec0 c W' : sProp 𝕄) ∗ Pipeline.unscopedRest spec0 c W') :=
    Pipeline.unscopedBufs_split₀ cfgs 0 winFacts₀0.arr_unscoped c W'
  rw [hub, arrBufs0_eq, arrays0_eq V c W' Fw hF]
  refine sep_mono ?_ (Entails.of_eq ?_)
  · iintro ⟨Hl, Hr, H1, H2, H3⟩
    isplitl [Hl Hr]
    · iapply (pointsTo_share (PosShare.mem_left_op_right fullShare)).2
      isplitl [Hl]; · iexact Hl
      iexact Hr
    isplitl [H1]; · iexact H1
    isplitl [H2]; · iexact H2
    iexact H3
  · unfold Pipeline.unscopedRest
    exact bigSep_congr fun b hb => by rw [hrest b (Finset.mem_sdiff.mp hb).2]

/-- The distinct buffers behind region 1's windows, one by one. -/
theorem arrBufs1_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0) ∗ (((c : Thread nD τ).loc main_v2) ↦{fullShare} W main_v2) ∗ (((c : Thread nD τ).loc main_v3) ↦{fullShare} W main_v3) ∗ (((c : Thread nD τ).loc main_v7) ↦{fullShare} W main_v7) ∗ (((c : Thread nD τ).loc main_v8) ↦{fullShare} W main_v8) ∗ (((c : Thread nD τ).loc main_v9) ↦{fullShare} W main_v9)) :=
  bigSep_eq_bigSepL_of_eq [main_arg0, main_v2, main_v3, main_v7, main_v8, main_v9] (by decide) (by decide) _

/-- Region 1's windowed arrays, one by one: the data matrix twice, at the two halves of its full share; every other
    array whole at the full share. -/
theorem arrays1_eq (c : Dev nD) (W : (b : Ref sig .tc) → Buf (Elt F) ((c : Thread nD τ).loc b))
    (Fw : (w : Fin cfg1.W) → Buf (Elt F) ((cfg1.win w).arr.view.loc (c.tc : Thread nD τ)))
    (hF : ∀ w, Fw w = W (Pipeline.arrRef spec1 w)) :
    ((dat1 V c).arrays Fw : sProp 𝕄)
      = iprop((((c : Thread nD τ).loc main_arg0) ↦{fullShare.left} W main_arg0) ∗ (((c : Thread nD τ).loc main_arg0) ↦{fullShare.right} W main_arg0) ∗ (((c : Thread nD τ).loc main_v2) ↦{fullShare} W main_v2) ∗ (((c : Thread nD τ).loc main_v3) ↦{fullShare} W main_v3) ∗ (((c : Thread nD τ).loc main_v7) ↦{fullShare} W main_v7) ∗ (((c : Thread nD τ).loc main_v8) ↦{fullShare} W main_v8) ∗ (((c : Thread nD τ).loc main_v9) ↦{fullShare} W main_v9)) := by
  have hs0 : (cfg1.win 0).arr.view.set = Finset.univ := (arr_whole1 0).set_eq_univ
  have hs1 : (cfg1.win 1).arr.view.set = Finset.univ := (arr_whole1 1).set_eq_univ
  have hs2 : (cfg1.win 2).arr.view.set = Finset.univ := (arr_whole1 2).set_eq_univ
  have hs3 : (cfg1.win 3).arr.view.set = Finset.univ := (arr_whole1 3).set_eq_univ
  have hs4 : (cfg1.win 4).arr.view.set = Finset.univ := (arr_whole1 4).set_eq_univ
  have hs5 : (cfg1.win 5).arr.view.set = Finset.univ := (arr_whole1 5).set_eq_univ
  have hs6 : (cfg1.win 6).arr.view.set = Finset.univ := (arr_whole1 6).set_eq_univ
  unfold Dat.arrays
  rw [bigSep_W1, hF 0, hF 1, hF 2, hF 3, hF 4, hF 5, hF 6,
    show (dat1 V c).share 0 = fullShare.left from rfl,
    show (dat1 V c).share 1 = fullShare.right from rfl,
    show (dat1 V c).share 2 = fullShare from rfl,
    show (dat1 V c).share 3 = fullShare from rfl,
    show (dat1 V c).share 4 = fullShare from rfl,
    show (dat1 V c).share 5 = fullShare from rfl,
    show (dat1 V c).share 6 = fullShare from rfl]
  simp only [hs0, hs1, hs2, hs3, hs4, hs5, hs6]

/-- ENTRY of region 1: the unscoped buffers at `W` are the region's arrays at `W` and the buffers no window reads;
    the data matrix's full share parts into its two halves. -/
theorem split1 (c : Dev nD) (W : (b : Ref sig .tc) → Buf (Elt F) ((c : Thread nD τ).loc b))
    (Fw : (w : Fin cfg1.W) → Buf (Elt F) ((cfg1.win w).arr.view.loc (c.tc : Thread nD τ)))
    (hF : ∀ w, Fw w = W (Pipeline.arrRef spec1 w)) :
    (unscopedBufs c W : sProp 𝕄) ⊢ iprop((dat1 V c).arrays Fw ∗ Pipeline.unscopedRest spec1 c W) := by
  have hub : (unscopedBufs c W : sProp 𝕄) = iprop((Pipeline.arrBufs spec1 c W : sProp 𝕄) ∗ Pipeline.unscopedRest spec1 c W) :=
    Pipeline.unscopedBufs_split₀ cfgs 1 winFacts₀1.arr_unscoped c W
  rw [hub, arrBufs1_eq, arrays1_eq V c W Fw hF]
  refine sep_mono ?_ .rfl
  iintro ⟨H0, H1, H2, H3, H4, H5⟩
  ihave H := (pointsTo_share (PosShare.mem_left_op_right fullShare)).1 $$ H0
  icases H with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT of region 1: the arrays at `W'` and the untouched buffers at `W` are the unscoped buffers at `W'`, which
    agrees with `W` off the arrays; the data matrix's two half shares join to the full share. -/
theorem join1 (c : Dev nD) (W W' : (b : Ref sig .tc) → Buf (Elt F) ((c : Thread nD τ).loc b))
    (Fw : (w : Fin cfg1.W) → Buf (Elt F) ((cfg1.win w).arr.view.loc (c.tc : Thread nD τ)))
    (hF : ∀ w, Fw w = W' (Pipeline.arrRef spec1 w))
    (hrest : ∀ b, b ∉ Finset.univ.image (Pipeline.arrRef spec1) → W' b = W b) :
    iprop((dat1 V c).arrays Fw ∗ Pipeline.unscopedRest spec1 c W) ⊢ (unscopedBufs c W' : sProp 𝕄) := by
  have hub : (unscopedBufs c W' : sProp 𝕄) = iprop((Pipeline.arrBufs spec1 c W' : sProp 𝕄) ∗ Pipeline.unscopedRest spec1 c W') :=
    Pipeline.unscopedBufs_split₀ cfgs 1 winFacts₀1.arr_unscoped c W'
  rw [hub, arrBufs1_eq, arrays1_eq V c W' Fw hF]
  refine sep_mono ?_ (Entails.of_eq ?_)
  · iintro ⟨Hl, Hr, H1, H2, H3, H4, H5⟩
    isplitl [Hl Hr]
    · iapply (pointsTo_share (PosShare.mem_left_op_right fullShare)).2
      isplitl [Hl]; · iexact Hl
      iexact Hr
    isplitl [H1]; · iexact H1
    isplitl [H2]; · iexact H2
    isplitl [H3]; · iexact H3
    isplitl [H4]; · iexact H4
    iexact H5
  · unfold Pipeline.unscopedRest
    exact bigSep_congr fun b hb => by rw [hrest b (Finset.mem_sdiff.mp hb).2]

end Arrays

/-! ## The contents at the regions' exits, read at the TensorCore's references -/

/-- The contents after the degree call, at the TensorCore's references. -/
abbrev T2 : (c : Dev nD) → (b : Ref sig .tc) → Buf (Elt F) ((c : Thread nD τ).loc b) := fun c b => U2 m c b
/-- The contents after the normalising call, at the TensorCore's references. -/
abbrev T4 : (c : Dev nD) → (b : Ref sig .tc) → Buf (Elt F) ((c : Thread nD τ).loc b) := fun c b => U4 m c b

/-- After the degree call every array of it holds what its write-backs leave: the inputs what they held, the degree
    column the folded write-backs. -/
theorem hF0 (c : Dev nD) : ∀ w : Fin cfg0.W, (dat0 (T1 m) c).arrAt w cfg0.N = T2 m c (Pipeline.arrRef spec0 w)
  | ⟨0, _⟩ => ((dat0 (T1 m) c).arrAt_in 0 rfl _).trans ((A_eq0 (T1 m) c 0).trans (U2_of_ne m c main_arg0 (by decide)).symm)
  | ⟨1, _⟩ => ((dat0 (T1 m) c).arrAt_in 1 rfl _).trans ((A_eq0 (T1 m) c 1).trans (U2_of_ne m c main_arg0 (by decide)).symm)
  | ⟨2, _⟩ => ((dat0 (T1 m) c).arrAt_in 2 rfl _).trans ((A_eq0 (T1 m) c 2).trans (U2_of_ne m c main_v2 (by decide)).symm)
  | ⟨3, _⟩ => ((dat0 (T1 m) c).arrAt_in 3 rfl _).trans ((A_eq0 (T1 m) c 3).trans (U2_of_ne m c main_v3 (by decide)).symm)
  | ⟨4, _⟩ => (U2_v4 m c).symm
/-- The degree call changes no buffer that is not one of its arrays. -/
theorem hrest0 (c : Dev nD) : ∀ b, b ∉ Finset.univ.image (Pipeline.arrRef spec0) → T2 m c b = T1 m c b :=
  fun b hb => U2_of_ne m c b fun e => hb (e ▸ Finset.mem_image.mpr ⟨4, Finset.mem_univ _, rfl⟩)

/-- After the normalising call every array of it holds what its write-backs leave: the inputs what they held, the
    result matrix the folded write-backs. -/
theorem hF1 (c : Dev nD) : ∀ w : Fin cfg1.W, (dat1 (T3 m) c).arrAt w cfg1.N = T4 m c (Pipeline.arrRef spec1 w)
  | ⟨0, _⟩ => ((dat1 (T3 m) c).arrAt_in 0 rfl _).trans ((A_eq1 (T3 m) c 0).trans (U4_of_ne m c main_arg0 (by decide)).symm)
  | ⟨1, _⟩ => ((dat1 (T3 m) c).arrAt_in 1 rfl _).trans ((A_eq1 (T3 m) c 1).trans (U4_of_ne m c main_arg0 (by decide)).symm)
  | ⟨2, _⟩ => ((dat1 (T3 m) c).arrAt_in 2 rfl _).trans ((A_eq1 (T3 m) c 2).trans (U4_of_ne m c main_v2 (by decide)).symm)
  | ⟨3, _⟩ => ((dat1 (T3 m) c).arrAt_in 3 rfl _).trans ((A_eq1 (T3 m) c 3).trans (U4_of_ne m c main_v3 (by decide)).symm)
  | ⟨4, _⟩ => ((dat1 (T3 m) c).arrAt_in 4 rfl _).trans ((A_eq1 (T3 m) c 4).trans (U4_of_ne m c main_v7 (by decide)).symm)
  | ⟨5, _⟩ => ((dat1 (T3 m) c).arrAt_in 5 rfl _).trans ((A_eq1 (T3 m) c 5).trans (U4_of_ne m c main_v8 (by decide)).symm)
  | ⟨6, _⟩ => (U4_v9 m c).symm
/-- The normalising call changes no buffer that is not one of its arrays. -/
theorem hrest1 (c : Dev nD) : ∀ b, b ∉ Finset.univ.image (Pipeline.arrRef spec1) → T4 m c b = T3 m c b :=
  fun b hb => U4_of_ne m c b fun e => hb (e ▸ Finset.mem_image.mpr ⟨6, Finset.mem_univ _, rfl⟩)

/-! ## The proof data of both calls and the state a core carries between segments -/

/-- The two calls' proof data, each at the contents its region is entered with. -/
def datas : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
abbrev 𝒱n : Variants := Variants.none
/-- No level is assigned: no core waits on another. -/
abbrev Lv : GSem nD τ sig → Finset Unit := fun _ => ∅
abbrev lvl : GSem nD τ sig → Unit → ℕ := fun _ _ => 0
/-- Beside the buffers a core carries its generator register, at some state, and that it owes nothing. -/
abbrev Rest (c : Dev nD) : sProp 𝕄 := iprop((∃ r, prngReg c r) ∗ ∃ W, owes (c : Thread nD τ) (0 : CellTallies nD τ sig Unit) W)
/-- A stretch of host operations over the unscoped buffers from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped reference of the TensorCore is among the buffers a core carries. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, its owing nothing apart: every unscoped buffer at the last contents and the
    generator register. -/
abbrev Tend (c : Dev nD) : sProp 𝕄 := iprop(StableHlo.held (c : Thread nD τ) (Pipeline.ucRefs τ sig) (U4 m c) ∗ ∃ r, prngReg c r)

/-! ## The two calls as segments -/

set_option backward.isDefEq.respectTransparency.types false in
/-- Region 0 as a segment: entered with every unscoped buffer at `U1`, left with them at `U2`. At entry the
    windows' arrays part from the other buffers, at exit they join them again at the contents the write-backs leave;
    the generator register goes into the invariant and comes back; nothing is owed and the kernel has no semaphore
    of its own. -/
def region0 : Pipeline.RegionSeg (pcfgs (F := F)) adm (datas m) () defs₀ 𝒱n Lv lvl 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ Lv lvl 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := split0 (T1 m) c (T1 m c) ((datas m 0 c).arrAt · 0) (fun w => A_eq0 (T1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (T1 m) c)
    unfold Pipeline.ΦA
    iintro ⟨Hp, -, Hr⟩
    isplitl [Hr]; · iexact Hr
    iexact Hp
  hout c := by
    rw [Pipeline.ownSems0_none]
    refine BIBase.Entails.trans (hout0 (T1 m) c) ?_
    unfold Pipeline.ΦA
    iintro ⟨Hr, Hp⟩
    isplitl [Hp]; · iexact Hp
    isplitr; · iempintro
    iexact Hr
  hexit c := by
    have hjoin := join0 (T1 m) c (T1 m c) (fun b => U2 m c b) ((datas m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `U3`, left with them at `U4`. At entry the
    windows' arrays part from the other buffers, at exit they join them again at the contents the write-backs leave;
    the generator register goes into the invariant and comes back; nothing is owed and the kernel has no semaphore
    of its own. -/
def region1 : Pipeline.RegionSeg (pcfgs (F := F)) adm (datas m) () defs₀ 𝒱n Lv lvl 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ Lv lvl 1 fun _ _ => rfl
  pre c := iprop(StableHlo.held (c : Thread nD τ) (Pipeline.ucRefs τ sig) (U3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := split1 (T3 m) c (T3 m c) ((datas m 1 c).arrAt · 0) (fun w => A_eq1 (T3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (T3 m) c (T3 m c) (fun b => U4 m c b) ((datas m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The program as four segments, and its run -/

/-- The program in order: host stretch, degree call, host stretch, normalising call. -/
abbrev segments : List (Pipeline.Seg (pcfgs (F := F)) adm (datas m) () defs₀ 𝒱n Lv lvl) :=
  [ .host (hostSeg hostOps0 hostOps0_sub hostOps0_fresh (U0 m)),
    .region (region0 m),
    .host (hostSeg hostOps1 hostOps1_sub hostOps1_fresh (U2 m)),
    .region (region1 m) ]
/-- The printed program is the run of these segments. -/
theorem main_is_run (c : Dev nD) : main (F := F) c = Pipeline.Seg.run (segments m) := (main_chain c).trans (by chain_rfl)

set_option backward.isDefEq.respectTransparency.types false in
/-- From any memory with every counter at zero, every weakly fair execution of the program on the TensorCores
    terminates, and at the end each core's result matrix holds what the normalising call's write-backs leave while
    the argument array holds what it was launched with: the four segments chained from the launch, the last state
    read against the final memory. -/
theorem run_main : θ_run defs (onTc (τ := τ) (main (F := F))) ⟨m, fun _ => 0, ρ⟩ (fun r => ∀ c : Dev nD,
      r.2.mem ((c.tc : Thread nD τ).loc main_v9) = resArr m c
      ∧ r.2.mem ((c.tc : Thread nD τ).loc main_arg0) = m ((c.tc : Thread nD τ).loc main_arg0)) :=
  Pipeline.θ_run_regions_kit (pcfgs (F := F)) adm (datas m) () cellOf_inj emb₁ defs₀ 𝒱n Lv lvl m ρ main (segments m)
    (fun c Q => by rw [main_is_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rest c)) (Tₙ := Tend m)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c =>
      ⟨(h c _ (mem_uc main_v9 (by decide))).trans (U4_v9 m c),
       (h c _ (mem_uc main_arg0 (by decide))).trans (U4_main_arg0 m c)⟩)

end Cert.Kernel.Frm

end
-- ==== Proof.KernelIdeal.Region0Runs.lean ====
/-
  Region 0 of the program: the degree call. Its 64 grid points run through row block i = t / 8 and column block
  j = t % 8. At every point the body adds, to a scratch column carried from point to point, the row sums of the
  similarity block (i, j); at j = 0 it first resets the scratch to zeros, and at j = 7 it copies the scratch into
  the output block, which is written back there and nowhere else. So there are three cases of the body's two
  conditionals: the first column block (A), an inner one (B), the last (C). Each case's run is found by executing
  the body; what the scratch holds after each point is then a recursion on the point.
  Stated at a parameter `V`, the contents of the core's buffers when the region is entered.
-/
import proofs.«138943_j41875931136544_1_alg».proof.Proof.Gen.KernelIdeal.Launch
import proofs.«138943_j41875931136544_1_alg».proof.Proof.Gen.KernelIdeal.Skeleton
import proofs.«138943_j41875931136544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, in closed form over the grid -/

/-- "This is the first column block": the reset is taken. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 8 = 0 :=
  (by decide +kernel : ∀ t : Fin grid0.N, cond0_0 (grid0.coords t) ↔ t.val % 8 = 0)

/-- "This is the last column block": the scratch is copied out. -/
abbrev cond0_1 (i : grid0.Coords) : Prop := k0_cond2 i = 1#1
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
/-- Away from the last column block nothing is stored into the output block and it is not written back. -/
theorem idleAt0_4_A : ∀ t : Fin cfg0.N, cond0_0 (grid0.coords t) → ¬cond0_1 (grid0.coords t) → cfg0.idle 4 (grid0.coords t) = true := by decide +kernel
theorem noFlush0_4_A : ∀ t : Fin cfg0.N, cond0_0 (grid0.coords t) → ¬cond0_1 (grid0.coords t) → (cfg0.win 4).flush t = false := by decide +kernel
theorem idleAt0_4_B : ∀ t : Fin cfg0.N, ¬cond0_0 (grid0.coords t) → ¬cond0_1 (grid0.coords t) → cfg0.idle 4 (grid0.coords t) = true := by decide +kernel
theorem noFlush0_4_B : ∀ t : Fin cfg0.N, ¬cond0_0 (grid0.coords t) → ¬cond0_1 (grid0.coords t) → (cfg0.win 4).flush t = false := by decide +kernel
theorem liveAt0_4_C : ∀ t : Fin cfg0.N, ¬cond0_0 (grid0.coords t) → cond0_1 (grid0.coords t) → cfg0.idle 4 (grid0.coords t) = false := by decide +kernel

/-! ## The staging memrefs at a point, the scratch, and the invariant the region starts from -/

abbrev VO0_4 : View sig .tc .vmem S1024x1 .f32 := (Memref.whole cc0_stg4_0 : Memref sig .tc .vmem S1024x1 .f32).view
abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .f32 := win0_4.stage (cfg0.slots t 4)
abbrev hs0_4 (t : Fin cfg0.N) : (ms0_4 t).IsWhole := hstage0_4 ((cfg0.slots t 4).cast nbuf0_4)
/-- The scratch column, a whole scoped buffer of the kernel's own. -/
abbrev scM0_0 : Memref sig .tc .vmem S1024x1 .f32 := Memref.whole cc0_scratch0
abbrev VS0_0 : View sig .tc .vmem S1024x1 .f32 := scM0_0.view

/-- The core's scoped buffers this region neither stages nor uses (the other call's staging buffers), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f))

/-- The invariant the region is entered with: the scratch at some contents, the other scoped buffers, the generator register. -/
theorem PhiA0_eq (c : Dev nD) :
    (Pipeline.ΦA spec0 c : sProp 𝕄)
      = iprop(iprop((∃ d, owns (c : Thread nD τ) scM0_0 fullShare d) ∗ others0 c) ∗ (∃ r, prngReg c r)) := by
  unfold Pipeline.ΦA others0; rw [scopedRest0_eq]; simp only [scM0_0, owns_whole]; try rfl

/-! ## The body's run, case by case: the pieces each buffer ends with are what the execution finds -/

set_option maxHeartbeats 4000000 in
/-- Case A (first column block): the scratch at anything going in; the output block handed back untouched. -/
noncomputable def kernelRun0_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨[], ?_, fun xi4 E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case B (an inner column block): the scratch at what the point before left; the output block handed back untouched. -/
noncomputable def kernelRun0_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (xi4 : Vec F S1024x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨[], ?_, fun xi4 E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS0

set_option maxHeartbeats 4000000 in
/-- Case C (last column block): the scratch at what the point before left; the output block stored. -/
noncomputable def kernelRun0_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) :
    Σ' (L4 : List (View.Piece (Elt F) S1024x1 .f32)), { LS0 : List (View.Piece (Elt F) S1024x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS0)) -∗ K ⟨⟩))
          ⊢ wp frame (wpE (defs₀ (F := F)) Variants.none c none) E (cc0__degree_kernel i arg2 harg2 arg3 harg3 arg4 harg4 arg5 harg5 arg6 harg6 arg7 harg7) K } := by
  refine ⟨?_, ?_, fun E K => ?run⟩
  case run =>
    simp only [cc0__degree_kernel_eq_skeleton]; unfold cc0__degree_kernel_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg2.eq_unread hf0; obtain rfl := harg3.eq_unread hf1; obtain rfl := harg4.eq_unread hf2; obtain rfl := harg5.eq_unread hf3; obtain rfl := harg7.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS0

end Region0

end Cert.KernelIdeal.Frm

end
-- ==== Proof.KernelIdeal.Region0.lean ====
/-
  Region 0, continued: what the scratch column and the output block hold after each grid point (a recursion on
  the point: the first column block starts the scratch afresh, every other one continues from what the point
  before left), the proof data, and the body obligation at every point.
-/
import proofs.«138943_j41875931136544_1_alg».proof.Proof.Gen.KernelIdeal.Launch
import proofs.«138943_j41875931136544_1_alg».proof.Proof.Gen.KernelIdeal.Skeleton
import proofs.«138943_j41875931136544_1_alg».proof.Proof.Gen.KernelIdeal.Points
import proofs.«138943_j41875931136544_1_alg».proof.Proof.KernelIdeal.Region0Runs
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! ## What each case leaves: its pieces read back -/

/-- Case A stores nothing into the output block: a placeholder nothing consults. -/
def out0_A_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) : Vec F S1024x1 .f32 :=
  VO0_4.read (Elt F) (VO0_4.writes (Elt F) VO0_4.junk (kernelRun0_A c i arg2 harg2 arg3 harg3 arg4 harg4 arg5 harg5 arg6 harg6 arg7 harg7 hc0 hc1 x0 x1 x2 x3).1)

/-- Case A's stores cover the scratch column. -/
theorem scover0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) (y : S1024x1.Idx) :
    ∃ pc ∈ (kernelRun0_A c i arg2 harg2 arg3 harg3 arg4 harg4 arg5 harg5 arg6 harg6 arg7 harg7 hc0 hc1 x0 x1 x2 x3).2.1, y ∈ pc.1.set :=
  View.cover_of_tiledL (kernelRun0_A c i arg2 harg2 arg3 harg3 arg4 harg4 arg5 harg5 arg6 harg6 arg7 harg7 hc0 hc1 x0 x1 x2 x3).2.1 S1024x1.size (by sl_kernel_rfl) y

/-- What case A leaves in the scratch column. -/
def sout0_A_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) : Vec F S1024x1 .f32 :=
  VS0_0.read (Elt F) (VS0_0.writes (Elt F) VS0_0.junk (kernelRun0_A c i arg2 harg2 arg3 harg3 arg4 harg4 arg5 harg5 arg6 harg6 arg7 harg7 hc0 hc1 x0 x1 x2 x3).2.1)

/-- Case B stores nothing into the output block: a placeholder nothing consults. -/
def out0_B_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) : Vec F S1024x1 .f32 :=
  VO0_4.read (Elt F) (VO0_4.writes (Elt F) VO0_4.junk (kernelRun0_B c i arg2 harg2 arg3 harg3 arg4 harg4 arg5 harg5 arg6 harg6 arg7 harg7 hc0 hc1 x0 x1 x2 x3 xs0).1)

theorem scover0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) (y : S1024x1.Idx) :
    ∃ pc ∈ (kernelRun0_B c i arg2 harg2 arg3 harg3 arg4 harg4 arg5 harg5 arg6 harg6 arg7 harg7 hc0 hc1 x0 x1 x2 x3 xs0).2.1, y ∈ pc.1.set :=
  View.cover_of_tiledL (kernelRun0_B c i arg2 harg2 arg3 harg3 arg4 harg4 arg5 harg5 arg6 harg6 arg7 harg7 hc0 hc1 x0 x1 x2 x3 xs0).2.1 S1024x1.size (by sl_kernel_rfl) y

/-- What case B leaves in the scratch column. -/
def sout0_B_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) : Vec F S1024x1 .f32 :=
  VS0_0.read (Elt F) (VS0_0.writes (Elt F) VS0_0.junk (kernelRun0_B c i arg2 harg2 arg3 harg3 arg4 harg4 arg5 harg5 arg6 harg6 arg7 harg7 hc0 hc1 x0 x1 x2 x3 xs0).2.1)

/-- Case C's one store covers the output block. -/
theorem cover0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).1, y ∈ pc.1.set :=
  View.cover_of_tiledL (kernelRun0_C c i arg2 harg2 arg3 harg3 arg4 harg4 arg5 harg5 arg6 harg6 arg7 harg7 hc0 hc1 x0 x1 x2 x3 xs0).1 S1024x1.size (by sl_kernel_rfl) y

/-- What case C leaves in the output block. -/
def out0_C_4 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) : Vec F S1024x1 .f32 :=
  VO0_4.read (Elt F) (VO0_4.writes (Elt F) VO0_4.junk (kernelRun0_C c i arg2 harg2 arg3 harg3 arg4 harg4 arg5 harg5 arg6 harg6 arg7 harg7 hc0 hc1 x0 x1 x2 x3 xs0).1)

theorem scover0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) (y : S1024x1.Idx) :
    ∃ pc ∈ (kernelRun0_C c i arg2 harg2 arg3 harg3 arg4 harg4 arg5 harg5 arg6 harg6 arg7 harg7 hc0 hc1 x0 x1 x2 x3 xs0).2.1, y ∈ pc.1.set :=
  View.cover_of_tiledL (kernelRun0_C c i arg2 harg2 arg3 harg3 arg4 harg4 arg5 harg5 arg6 harg6 arg7 harg7 hc0 hc1 x0 x1 x2 x3 xs0).2.1 S1024x1.size (by sl_kernel_rfl) y

/-- What case C leaves in the scratch column. -/
def sout0_C_0 (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) : Vec F S1024x1 .f32 :=
  VS0_0.read (Elt F) (VS0_0.writes (Elt F) VS0_0.junk (kernelRun0_C c i arg2 harg2 arg3 harg3 arg4 harg4 arg5 harg5 arg6 harg6 arg7 harg7 hc0 hc1 x0 x1 x2 x3 xs0).2.1)

/-! ## What the output block and the scratch column hold after each point -/

/-- THE ACCUMULATION: after the body at position `n`, the pair (output block, scratch column): the case the closed
    forms select at `n`, run at the point's blocks, the scratch continuing from what position `n - 1` left unless
    `n` is a first column block. -/
def outsAt0 (c : Dev nD) : (n : ℕ) → n < cfg0.N → Vec F S1024x1 .f32 × Vec F S1024x1 .f32
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩))
  | n + 1, hn =>
    if h0 : (n + 1) % 8 = 0 then
      if h1 : (n + 1) % 8 = 7 then
        False.elim (by omega)
      else
        (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩))
    else
      if h1 : (n + 1) % 8 = 7 then
        (out0_C_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)
      else
        (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (outsAt0 c n (Nat.lt_of_succ_lt hn)).2)

/-- `outsAt0` at a first column block. -/
theorem outsAt0_A (c : Dev nD) (t : Fin cfg0.N) (h0 : t.val % 8 = 0) (h1 : ¬t.val % 8 = 7) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (iblk0 V c 0 t) (iblk0 V c 1 t) (iblk0 V c 2 t) (iblk0 V c 3 t)) := by
  obtain ⟨n, hn⟩ := t
  cases n with
  | zero => exact rfl
  | succ n => exact (dif_pos h0).trans ((dif_neg h1).trans rfl)

/-- `outsAt0` at an inner column block: over what the point before left. -/
theorem outsAt0_B (c : Dev nD) (t : Fin cfg0.N) (h0 : ¬t.val % 8 = 0) (h1 : ¬t.val % 8 = 7) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a last column block: over what the point before left. -/
theorem outsAt0_C (c : Dev nD) (t : Fin cfg0.N) (h0 : ¬t.val % 8 = 0) (h1 : t.val % 8 = 7) :
    outsAt0 V c t.val t.isLt = (out0_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (iblk0 V c 0 t) (iblk0 V c 1 t) (iblk0 V c 2 t) (iblk0 V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: at entry the scratch at anything; afterwards the scratch at what the
    point before left; beside it the other scoped buffers and the generator register. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ others0 c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop(iprop(owns (c : Thread nD τ) scM0_0 fullShare ((outsAt0 V c n hn).2) ∗ others0 c) ∗ (∃ r, prngReg c r)) := rfl

theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ others0 c) ∗ (∃ r, prngReg c r)) := by
  cases n with
  | zero => exact absurd rfl hz
  | succ n => rfl

/-! ## The proof data -/

/-- The proof data of pipeline 0 on core `c`: the arrays as the region finds them; after the body each input's buffer
    at its block and the output's at `outsAt0`'s first component; the invariant `PhiS`; nothing owed. The two
    windows that read the data matrix hold it at the two halves of its full share. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t.val t.isLt).1
  Φ t := PhiS V c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t)

set_option maxHeartbeats 8000000 in
/-- The body at any point: the closed forms say which case the point is in; the inputs' buffers hold their blocks; the
    invariant hands over the scratch at what the point before left (at anything at entry) and takes it back at this
    point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).owesAt () t.succ = (dat0 V c).owesAt () t.castSucc from rfl]
  rw [show (dat0 V c).Φ t.succ = PhiS V c (t.val + 1) t.isLt from rfl, PhiS_succ]
  have hN : t.val < 64 := lt_of_lt_of_eq t.isLt (show cfg0.N = 64 from N_0)
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_A t ((hcond0_0 t).mpr h0) (fun h => h1 ((hcond0_1 t).mp h))) (noFlush0_4_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
      · rw [PhiS_castSucc V c t, PhiS_pos V c _ _ hz]
        iintro ⟨⟨⟨HS0, Hoth⟩, Hg⟩, Ho, ⟨%d0, H0⟩, ⟨%d1, H1⟩, ⟨%d2, H2⟩, ⟨%d3, H3⟩, ⟨%d4, H4⟩⟩
        iapply ((kernelRun0_A c (grid0.coords t) _ _ _ _ _ _ _ _ _ _ _ _ ((hcond0_0 t).mpr h0) (fun h => h1 ((hcond0_1 t).mp h)) (iblk0 V c 0 t) (iblk0 V c 1 t) (iblk0 V c 2 t) (iblk0 V c 3 t)).2.2 _ Set.univ _)
        isplitl [H0]; · iexact H0
        isplitl [H1]; · iexact H1
        isplitl [H2]; · iexact H2
        isplitl [H3]; · iexact H3
        isplitl [H4]; · iexact H4
        isplitl [HS0]; · iexists _; iexact HS0
        iintro ⟨H0, H1, H2, H3, H4, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _ _ _ _ )
            iexact Hoth
          iexact Hg
        isplitl [Ho]; · iexact Ho
        isplitl [H0]; · iexact H0
        isplitl [H1]; · iexact H1
        isplitl [H2]; · iexact H2
        isplitl [H3]; · iexact H3
        iexists _; iexact H4
  · by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4_C t (fun h => h0 ((hcond0_0 t).mp h)) ((hcond0_1 t).mpr h1)], after0_4]
      rw [outsAt0_C V c t h0 h1]
      unfold out0_C_4 sout0_C_0; (try dsimp only)
      have hz : t.val ≠ 0 := fun hz => h0 (by rw [hz])
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_C c (grid0.coords t) _ _ _ _ _ _ _ _ _ _ _ _ (fun h => h0 ((hcond0_0 t).mp h)) ((hcond0_1 t).mpr h1) (iblk0 V c 0 t) (iblk0 V c 1 t) (iblk0 V c 2 t) (iblk0 V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_C_0 c _ _ _ _ _ _ _ _ _ _ _ _ _ _ _ _ _ _ _ _)
          iexact Hoth
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_C_4 c _ _ _ _ _ _ _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [Dat.leavesExact_idle (dat0 V c) 4 t (idleAt0_4_B t (fun h => h0 ((hcond0_0 t).mp h)) (fun h => h1 ((hcond0_1 t).mp h))) (noFlush0_4_B t (fun h => h0 ((hcond0_0 t).mp h)) (fun h => h1 ((hcond0_1 t).mp h)))]
      rw [outsAt0_B V c t h0 h1]
      unfold sout0_B_0; (try dsimp only)
      have hz : t.val ≠ 0 := fun hz => h0 (by rw [hz])
      rw [PhiS_castSucc V c t, PhiS_pos V c _ _ hz]
      iintro ⟨⟨⟨HS0, Hoth⟩, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (fun h => h1 ((hcond0_1 t).mp h)) (iblk0 V c 0 t) (iblk0 V c 1 t) (iblk0 V c 2 t) (iblk0 V c 3 t) _).2.2 _ Set.univ _)
      isplitl [H0]; · iexact H0
      isplitl [H1]; · iexact H1
      isplitl [H2]; · iexact H2
      isplitl [H3]; · iexact H3
      isplitl [H4]; · iexact H4
      isplitl [HS0]; · iexact HS0
      iintro ⟨H0, H1, H2, H3, H4, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _ _ _ _ )
          iexact Hoth
        iexact Hg
      isplitl [Ho]; · iexact Ho
      isplitl [H0]; · iexact H0
      isplitl [H1]; · iexact H1
      isplitl [H2]; · iexact H2
      isplitl [H3]; · iexact H3
      iexists _; iexact H4

theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the scratch back at some contents. -/
theorem hout0 (c : Dev nD) : (dat0 V c).Φ (Fin.last cfg0.N) ⊢ Pipeline.ΦA spec0 c := by
  have ht : (Fin.last cfg0.N).val ≠ 0 := by rw [Fin.val_last]; have : cfg0.N = 64 := N_0; omega
  rw [show (dat0 V c).Φ (Fin.last cfg0.N) = PhiS V c (Fin.last cfg0.N).val (Nat.le_of_lt_succ (Fin.last cfg0.N).isLt) from rfl, PhiS_pos V c _ _ ht, PhiA0_eq]
  iintro ⟨⟨HS0, Hoth⟩, Hg⟩
  isplitl [HS0 Hoth]
  · isplitl [HS0]
    · iexists _; iexact HS0
    iexact Hoth
  iexact Hg

end Region0

end Cert.KernelIdeal.Frm

end
-- ==== Proof.KernelIdeal.Region1.lean ====
/-
  Region 1 of the program: the normalising call. At every grid point the body reads its six input blocks
  (two row blocks of the data matrix, the squared norms as a column and as a row, the inverse root degrees as a
  column and as a row), and stores ONE value, the payload of those six loads, over the whole output block.
  Stated at a parameter `V`, the contents of the core's buffers when the region is entered.
-/
import proofs.«138943_j41875931136544_1_alg».proof.Proof.Gen.KernelIdeal.Launch
import proofs.«138943_j41875931136544_1_alg».proof.Proof.Gen.KernelIdeal.Skeleton
import proofs.«138943_j41875931136544_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written whole -/

abbrev rA : Rect S1024x128 := Rect.unit (s := S1024x128) ![0, 0] S1024x128.size inb_S1024x128_S1024x128_0_0
abbrev rB : Rect S1024x1 := Rect.unit (s := S1024x1) ![0, 0] S1024x1.size inb_S1024x1_S1024x1_0_0
abbrev rC : Rect S1x1024 := Rect.unit (s := S1x1024) ![0, 0] S1x1024.size inb_S1x1024_S1x1024_0_0
abbrev rD : Rect S1024x1024 := Rect.unit (s := S1024x1024) ![0, 0] S1024x1024.size inb_S1024x1024_S1024x1024_0_0

/-- What the body leaves in the output block: its one store, of the payload of the six loads. -/
def out1_6 (x0 x1 : Vec F S1024x128 .f32) (x2 : Vec F S1024x1 .f32) (x3 : Vec F S1x1024 .f32) (x4 : Vec F S1024x1 .f32) (x5 : Vec F S1x1024 .f32) : Vec F S1024x1024 .f32 :=
  View.canon [⟨rD, k1_pay1 (View.ld x0 rA) (View.ld x1 rA) (View.ld x2 rB) (View.ld x3 rC) (View.ld x4 rB) (View.ld x5 rC)⟩]

/-- The one store covers the block. -/
theorem cover1_6 (p0 : Vec F S1024x1024 .f32) (y : S1024x1024.Idx) :
    ∃ pc ∈ ([⟨rD, p0⟩] : List (View.Piece (Elt F) S1024x1024 .f32)), y ∈ pc.1.set :=
  View.cover_of_tiled [⟨rD, p0⟩] S1024x1024.size (by rfl) y

/-- Every access being of a whole buffer, the block is just the payload of the six blocks. -/
theorem out1_6_eq (x0 x1 : Vec F S1024x128 .f32) (x2 : Vec F S1024x1 .f32) (x3 : Vec F S1x1024 .f32) (x4 : Vec F S1024x1 .f32) (x5 : Vec F S1x1024 .f32) :
    out1_6 x0 x1 x2 x3 x4 x5 = k1_pay1 x0 x1 x2 x3 x4 x5 := by
  have hz : (![0, 0] : Fin 2 → Nat) = fun _ => 0 := by funext a; fin_cases a <;> rfl
  unfold out1_6
  rw [View.canon_unit_zero hz]
  simp only [View.ld_unit_zero (S := S1024x128) hz, View.ld_unit_zero (S := S1024x1) hz, View.ld_unit_zero (S := S1x1024) hz]

/-! ## The body's triple -/

set_option maxHeartbeats 2000000 in
/-- The body on whole staging buffers, the inputs' at contents `x0 … x5` and the output's at anything, runs to the
    continuation with the inputs' as they were and the output's at `out1_6` of them. -/
theorem sound_kernel1 (c : Dev nD) (E : Set ℕ) (i : grid1.Coords)
    (arg2 : Memref sig .tc .vmem S1024x128 .f32) (harg2 : arg2.IsWhole) (arg3 : Memref sig .tc .vmem S1024x128 .f32) (harg3 : arg3.IsWhole)
    (arg4 : Memref sig .tc .vmem S1024x1 .f32) (harg4 : arg4.IsWhole) (arg5 : Memref sig .tc .vmem S1x1024 .f32) (harg5 : arg5.IsWhole)
    (arg6 : Memref sig .tc .vmem S1024x1 .f32) (harg6 : arg6.IsWhole) (arg7 : Memref sig .tc .vmem S1x1024 .f32) (harg7 : arg7.IsWhole)
    (arg8 : Memref sig .tc .vmem S1024x1024 .f32) (harg8 : arg8.IsWhole)
    (x0 x1 : Vec F S1024x128 .f32) (x2 : Vec F S1024x1 .f32) (x3 : Vec F S1x1024 .f32) (x4 : Vec F S1024x1 .f32) (x5 : Vec F S1x1024 .f32)
    (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare (out1_6 x0 x1 x2 x3 x4 x5)) -∗ K ⟨⟩))
      ⊢ wp frame (wpE (defs₀ (F := F)) Variants.none c none) E (cc1__normalize_kernel i arg2 harg2 arg3 harg3 arg4 harg4 arg5 harg5 arg6 harg6 arg7 harg7 arg8 harg8) K := by
  simp only [cc1__normalize_kernel_eq_skeleton]; unfold cc1__normalize_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover1_6 _)

/-! ## The proof data -/

/-- The proof data of pipeline 1 on core `c`: the arrays as the region finds them; after the body each input's buffer
    at its block and the output's at `out1_6` of the input blocks; the scoped rest and the generator register as the
    invariant, untouched; nothing owed. The two windows that read the data matrix hold it at the two halves of its
    full share; every other array is held at the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) (iblk1 V c 5 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

set_option maxHeartbeats 2000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation1 (c : Dev nD) : BodyObligation (dat1 (F := F) V c) (defs₀ (F := F)) Variants.none () Set.univ := fun t => by
  rw [bigSep_W1, bigSep_W1]
  exact sound_body1 V c t

end Region1

end Cert.KernelIdeal.Frm

end
-- ==== Proof.KernelIdeal.Vals.lean ====
/-
  The contents of the core's buffers at each boundary of the program: at launch; after the first host stretch
  (the squared norms as a column and as a row); after the degree call, which changes only the degree column;
  after the second host stretch (the inverse root degrees as a column and as a row); after the normalising call,
  which changes only the result matrix.
-/
import proofs.«138943_j41875931136544_1_alg».proof.Proof.Gen.KernelIdeal.Launch
import proofs.«138943_j41875931136544_1_alg».proof.Proof.Gen.KernelIdeal.Skeleton
import proofs.«138943_j41875931136544_1_alg».proof.Proof.Gen.KernelIdeal.Points
import proofs.«138943_j41875931136544_1_alg».proof.Proof.Gen.KernelIdeal.Regions
import proofs.«138943_j41875931136544_1_alg».proof.Proof.KernelIdeal.Region0
import proofs.«138943_j41875931136544_1_alg».proof.Proof.KernelIdeal.Region1
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev U0 (c : Dev nD) : Valuation τ sig (Elt F) := fun b => m (c, b)
/-- After the first host stretch: region 0's entry contents. -/
abbrev U1 (c : Dev nD) : Valuation τ sig (Elt F) := StableHlo.after hostOps0 (U0 m c)
/-- The same read at the TensorCore's references. -/
abbrev T1 : (c : Dev nD) → (b : Ref sig .tc) → Buf (Elt F) ((c : Thread nD τ).loc b) := fun c b => U1 m c b
/-- What the degree call leaves in the degree column. -/
def degArr (c : Dev nD) : Buf (Elt F) ((c : Thread nD τ).loc main_v4) := (dat0 (T1 m) c).arrAt 4 cfg0.N
/-- After the degree call: only the degree column has changed. -/
def U2 (c : Dev nD) : Valuation τ sig (Elt F) := Function.update (U1 m c) main_v4 (degArr m c)
/-- After the second host stretch: region 1's entry contents. -/
abbrev U3 (c : Dev nD) : Valuation τ sig (Elt F) := StableHlo.after hostOps1 (U2 m c)
abbrev T3 : (c : Dev nD) → (b : Ref sig .tc) → Buf (Elt F) ((c : Thread nD τ).loc b) := fun c b => U3 m c b
/-- What the normalising call leaves in the result matrix. -/
def resArr (c : Dev nD) : Buf (Elt F) ((c : Thread nD τ).loc main_v9) := (dat1 (T3 m) c).arrAt 6 cfg1.N
/-- After the normalising call: only the result matrix has changed. -/
def U4 (c : Dev nD) : Valuation τ sig (Elt F) := Function.update (U3 m c) main_v9 (resArr m c)

theorem U2_v4 (c : Dev nD) : U2 m c main_v4 = degArr m c := by unfold U2; exact Function.update_self _ _ _
theorem U2_of_ne (c : Dev nD) (r : Ref sig .tc) (h : r ≠ main_v4) : U2 m c r = U1 m c r := by
  unfold U2; exact Function.update_of_ne (StableHlo.devRef_ne_of_ne h) _ _
theorem U4_v9 (c : Dev nD) : U4 m c main_v9 = resArr m c := by unfold U4; exact Function.update_self _ _ _
theorem U4_of_ne (c : Dev nD) (r : Ref sig .tc) (h : r ≠ main_v9) : U4 m c r = U3 m c r := by
  unfold U4; exact Function.update_of_ne (StableHlo.devRef_ne_of_ne h) _ _

/-- The argument array is never written: it ends as launched. -/
theorem U4_main_arg0 (c : Dev nD) : U4 m c main_arg0 = m ((c : Thread nD τ).loc main_arg0) :=
  (U4_of_ne m c main_arg0 (by decide)).trans <| (StableHlo.after_of_writes_sub hostOps1 _ hostOps1_writes (by decide)).trans <|
    (U2_of_ne m c main_arg0 (by decide)).trans <| (StableHlo.after_of_writes_sub hostOps0 _ hostOps0_writes (by decide)).trans rfl

end Cert.KernelIdeal.Frm

end
-- ==== Proof.KernelIdeal.Launch.lean ====
/-
  The run of the whole program: the first host stretch, the degree call, the second host stretch, the normalising
  call, each entered from what the one before left; every weakly fair execution terminates, the result matrix
  ends at what the normalising call's write-backs leave and the argument array ends as launched.
-/
import proofs.«138943_j41875931136544_1_alg».proof.Proof.Gen.KernelIdeal.Launch
import proofs.«138943_j41875931136544_1_alg».proof.Proof.Gen.KernelIdeal.Skeleton
import proofs.«138943_j41875931136544_1_alg».proof.Proof.Gen.KernelIdeal.Points
import proofs.«138943_j41875931136544_1_alg».proof.Proof.KernelIdeal.Vals
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## A region's arrays among the core's unscoped buffers

Both calls read the data matrix through two windows, so the windows' arrays are not distinct buffers: the matrix is
held once, whole, and the two windows hold it at the two halves of its full share. -/

section Arrays

variable (V : (c : Dev nD) → (b : Ref sig .tc) → Buf (Elt F) ((c : Thread nD τ).loc b))

/-- The distinct buffers behind region 0's windows, one by one. -/
theorem arrBufs0_eq (c : Dev nD) (W : (b : Ref sig .tc) → Buf (Elt F) ((c : Thread nD τ).loc b)) :
    (Pipeline.arrBufs spec0 c W : sProp 𝕄)
      = iprop((((c : Thread nD τ).loc main_arg0) ↦{fullShare} W main_arg0) ∗ (((c : Thread nD τ).loc main_v2) ↦{fullShare} W main_v2) ∗ (((c : Thread nD τ).loc main_v3) ↦{fullShare} W main_v3) ∗ (((c : Thread nD τ).loc main_v4) ↦{fullShare} W main_v4)) :=
  bigSep_eq_bigSepL_of_eq [main_arg0, main_v2, main_v3, main_v4] (by decide) (by decide) _

/-- Region 0's windowed arrays, one by one: the data matrix twice, at the two halves of its full share; every other
    array whole at the full share. -/
theorem arrays0_eq (c : Dev nD) (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    ((dat0 V c).arrays Fw : sProp 𝕄)
      = iprop((((c : Thread nD τ).loc main_arg0) ↦{fullShare.left} W main_arg0) ∗ (((c : Thread nD τ).loc main_arg0) ↦{fullShare.right} W main_arg0) ∗ (((c : Thread nD τ).loc main_v2) ↦{fullShare} W main_v2) ∗ (((c : Thread nD τ).loc main_v3) ↦{fullShare} W main_v3) ∗ (((c : Thread nD τ).loc main_v4) ↦{fullShare} W main_v4)) := by
  have hs0 : (cfg0.win 0).arr.view.set = Finset.univ := (arr_whole0 0).set_eq_univ
  have hs1 : (cfg0.win 1).arr.view.set = Finset.univ := (arr_whole0 1).set_eq_univ
  have hs2 : (cfg0.win 2).arr.view.set = Finset.univ := (arr_whole0 2).set_eq_univ
  have hs3 : (cfg0.win 3).arr.view.set = Finset.univ := (arr_whole0 3).set_eq_univ
  have hs4 : (cfg0.win 4).arr.view.set = Finset.univ := (arr_whole0 4).set_eq_univ
  unfold Dat.arrays
  rw [bigSep_W0, hF 0, hF 1, hF 2, hF 3, hF 4,
    show (dat0 V c).share 0 = fullShare.left from rfl,
    show (dat0 V c).share 1 = fullShare.right from rfl,
    show (dat0 V c).share 2 = fullShare from rfl,
    show (dat0 V c).share 3 = fullShare from rfl,
    show (dat0 V c).share 4 = fullShare from rfl]
  simp only [hs0, hs1, hs2, hs3, hs4]

/-- ENTRY of region 0: the unscoped buffers at `W` are the region's arrays at `W` and the buffers no window reads;
    the data matrix's full share parts into its two halves. -/
theorem split0 (c : Dev nD) (W : (b : Ref sig .tc) → Buf (Elt F) ((c : Thread nD τ).loc b))
    (Fw : (w : Fin cfg0.W) → Buf (Elt F) ((cfg0.win w).arr.view.loc (c.tc : Thread nD τ)))
    (hF : ∀ w, Fw w = W (Pipeline.arrRef spec0 w)) :
    (unscopedBufs c W : sProp 𝕄) ⊢ iprop((dat0 V c).arrays Fw ∗ Pipeline.unscopedRest spec0 c W) := by
  have hub : (unscopedBufs c W : sProp 𝕄) = iprop((Pipeline.arrBufs spec0 c W : sProp 𝕄) ∗ Pipeline.unscopedRest spec0 c W) :=
    Pipeline.unscopedBufs_split₀ cfgs 0 winFacts₀0.arr_unscoped c W
  rw [hub, arrBufs0_eq, arrays0_eq V c W Fw hF]
  refine sep_mono ?_ .rfl
  iintro ⟨H0, H1, H2, H3⟩
  ihave H := (pointsTo_share (PosShare.mem_left_op_right fullShare)).1 $$ H0
  icases H with ⟨Hl, Hr⟩
  isplitl [Hl]; · iexact Hl
  isplitl [Hr]; · iexact Hr
  isplitl [H1]; · iexact H1
  isplitl [H2]; · iexact H2
  iexact H3

/-- EXIT of region 0: the arrays at `W'` and the untouched buffers at `W` are the unscoped buffers at `W'`, which
    agrees with `W` off the arrays; the data matrix's two half shares join to the full share. -/
theorem join0 (c : Dev nD) (W W' : (b : Ref sig .tc) → Buf (Elt F) ((c : Thread nD τ).loc b))
    (Fw : (w : Fin cfg0.W) → Buf (Elt F) ((cfg0.win w).arr.view.loc (c.tc : Thread nD τ)))
    (hF : ∀ w, Fw w = W' (Pipeline.arrRef spec0 w))
    (hrest : ∀ b, b ∉ Finset.univ.image (Pipeline.arrRef spec0) → W' b = W b) :
    iprop((dat0 V c).arrays Fw ∗ Pipeline.unscopedRest spec0 c W) ⊢ (unscopedBufs c W' : sProp 𝕄) := by
  have hub : (unscopedBufs c W' : sProp 𝕄) = iprop((Pipeline.arrBufs spec0 c W' : sProp 𝕄) ∗ Pipeline.unscopedRest spec0 c W') :=
    Pipeline.unscopedBufs_split₀ cfgs 0 winFacts₀0.arr_unscoped c W'
  rw [hub, arrBufs0_eq, arrays0_eq V c W' Fw hF]
  refine sep_mono ?_ (Entails.of_eq ?_)
  · iintro ⟨Hl, Hr, H1, H2, H3⟩
    isplitl [Hl Hr]
    · iapply (pointsTo_share (PosShare.mem_left_op_right fullShare)).2
      isplitl [Hl]; · iexact Hl
      iexact Hr
    isplitl [H1]; · iexact H1
    isplitl [H2]; · iexact H2
    iexact H3
  · unfold Pipeline.unscopedRest
    exact bigSep_congr fun b hb => by rw [hrest b (Finset.mem_sdiff.mp hb).2]

/-- The distinct buffers behind region 1's windows, one by one. -/
theorem arrBufs1_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0) ∗ (((c : Thread nD τ).loc main_v2) ↦{fullShare} W main_v2) ∗ (((c : Thread nD τ).loc main_v3) ↦{fullShare} W main_v3) ∗ (((c : Thread nD τ).loc main_v7) ↦{fullShare} W main_v7) ∗ (((c : Thread nD τ).loc main_v8) ↦{fullShare} W main_v8) ∗ (((c : Thread nD τ).loc main_v9) ↦{fullShare} W main_v9)) :=
  bigSep_eq_bigSepL_of_eq [main_arg0, main_v2, main_v3, main_v7, main_v8, main_v9] (by decide) (by decide) _

/-- Region 1's windowed arrays, one by one: the data matrix twice, at the two halves of its full share; every other
    array whole at the full share. -/
theorem arrays1_eq (c : Dev nD) (W : (b : Ref sig .tc) → Buf (Elt F) ((c : Thread nD τ).loc b))
    (Fw : (w : Fin cfg1.W) → Buf (Elt F) ((cfg1.win w).arr.view.loc (c.tc : Thread nD τ)))
    (hF : ∀ w, Fw w = W (Pipeline.arrRef spec1 w)) :
    ((dat1 V c).arrays Fw : sProp 𝕄)
      = iprop((((c : Thread nD τ).loc main_arg0) ↦{fullShare.left} W main_arg0) ∗ (((c : Thread nD τ).loc main_arg0) ↦{fullShare.right} W main_arg0) ∗ (((c : Thread nD τ).loc main_v2) ↦{fullShare} W main_v2) ∗ (((c : Thread nD τ).loc main_v3) ↦{fullShare} W main_v3) ∗ (((c : Thread nD τ).loc main_v7) ↦{fullShare} W main_v7) ∗ (((c : Thread nD τ).loc main_v8) ↦{fullShare} W main_v8) ∗ (((c : Thread nD τ).loc main_v9) ↦{fullShare} W main_v9)) := by
  have hs0 : (cfg1.win 0).arr.view.set = Finset.univ := (arr_whole1 0).set_eq_univ
  have hs1 : (cfg1.win 1).arr.view.set = Finset.univ := (arr_whole1 1).set_eq_univ
  have hs2 : (cfg1.win 2).arr.view.set = Finset.univ := (arr_whole1 2).set_eq_univ
  have hs3 : (cfg1.win 3).arr.view.set = Finset.univ := (arr_whole1 3).set_eq_univ
  have hs4 : (cfg1.win 4).arr.view.set = Finset.univ := (arr_whole1 4).set_eq_univ
  have hs5 : (cfg1.win 5).arr.view.set = Finset.univ := (arr_whole1 5).set_eq_univ
  have hs6 : (cfg1.win 6).arr.view.set = Finset.univ := (arr_whole1 6).set_eq_univ
  unfold Dat.arrays
  rw [bigSep_W1, hF 0, hF 1, hF 2, hF 3, hF 4, hF 5, hF 6,
    show (dat1 V c).share 0 = fullShare.left from rfl,
    show (dat1 V c).share 1 = fullShare.right from rfl,
    show (dat1 V c).share 2 = fullShare from rfl,
    show (dat1 V c).share 3 = fullShare from rfl,
    show (dat1 V c).share 4 = fullShare from rfl,
    show (dat1 V c).share 5 = fullShare from rfl,
    show (dat1 V c).share 6 = fullShare from rfl]
  simp only [hs0, hs1, hs2, hs3, hs4, hs5, hs6]

/-- ENTRY of region 1: the unscoped buffers at `W` are the region's arrays at `W` and the buffers no window reads;
    the data matrix's full share parts into its two halves. -/
theorem split1 (c : Dev nD) (W : (b : Ref sig .tc) → Buf (Elt F) ((c : Thread nD τ).loc b))
    (Fw : (w : Fin cfg1.W) → Buf (Elt F) ((cfg1.win w).arr.view.loc (c.tc : Thread nD τ)))
    (hF : ∀ w, Fw w = W (Pipeline.arrRef spec1 w)) :
    (unscopedBufs c W : sProp 𝕄) ⊢ iprop((dat1 V c).arrays Fw ∗ Pipeline.unscopedRest spec1 c W) := by
  have hub : (unscopedBufs c W : sProp 𝕄) = iprop((Pipeline.arrBufs spec1 c W : sProp 𝕄) ∗ Pipeline.unscopedRest spec1 c W) :=
    Pipeline.unscopedBufs_split₀ cfgs 1 winFacts₀1.arr_unscoped c W
  rw [hub, arrBufs1_eq, arrays1_eq V c W Fw hF]
  refine sep_mono ?_ .rfl
  iintro ⟨H0, H1, H2, H3, H4, H5⟩
  ihave H := (pointsTo_share (PosShare.mem_left_op_right fullShare)).1 $$ H0
  icases H with ⟨Hl, Hr⟩
  isplitl [Hl]; · iexact Hl
  isplitl [Hr]; · iexact Hr
  isplitl [H1]; · iexact H1
  isplitl [H2]; · iexact H2
  isplitl [H3]; · iexact H3
  isplitl [H4]; · iexact H4
  iexact H5

/-- EXIT of region 1: the arrays at `W'` and the untouched buffers at `W` are the unscoped buffers at `W'`, which
    agrees with `W` off the arrays; the data matrix's two half shares join to the full share. -/
theorem join1 (c : Dev nD) (W W' : (b : Ref sig .tc) → Buf (Elt F) ((c : Thread nD τ).loc b))
    (Fw : (w : Fin cfg1.W) → Buf (Elt F) ((cfg1.win w).arr.view.loc (c.tc : Thread nD τ)))
    (hF : ∀ w, Fw w = W' (Pipeline.arrRef spec1 w))
    (hrest : ∀ b, b ∉ Finset.univ.image (Pipeline.arrRef spec1) → W' b = W b) :
    iprop((dat1 V c).arrays Fw ∗ Pipeline.unscopedRest spec1 c W) ⊢ (unscopedBufs c W' : sProp 𝕄) := by
  have hub : (unscopedBufs c W' : sProp 𝕄) = iprop((Pipeline.arrBufs spec1 c W' : sProp 𝕄) ∗ Pipeline.unscopedRest spec1 c W') :=
    Pipeline.unscopedBufs_split₀ cfgs 1 winFacts₀1.arr_unscoped c W'
  rw [hub, arrBufs1_eq, arrays1_eq V c W' Fw hF]
  refine sep_mono ?_ (Entails.of_eq ?_)
  · iintro ⟨Hl, Hr, H1, H2, H3, H4, H5⟩
    isplitl [Hl Hr]
    · iapply (pointsTo_share (PosShare.mem_left_op_right fullShare)).2
      isplitl [Hl]; · iexact Hl
      iexact Hr
    isplitl [H1]; · iexact H1
    isplitl [H2]; · iexact H2
    isplitl [H3]; · iexact H3
    isplitl [H4]; · iexact H4
    iexact H5
  · unfold Pipeline.unscopedRest
    exact bigSep_congr fun b hb => by rw [hrest b (Finset.mem_sdiff.mp hb).2]

end Arrays

/-! ## The contents at the regions' exits, read at the TensorCore's references -/

/-- The contents after the degree call, at the TensorCore's references. -/
abbrev T2 : (c : Dev nD) → (b : Ref sig .tc) → Buf (Elt F) ((c : Thread nD τ).loc b) := fun c b => U2 m c b
/-- The contents after the normalising call, at the TensorCore's references. -/
abbrev T4 : (c : Dev nD) → (b : Ref sig .tc) → Buf (Elt F) ((c : Thread nD τ).loc b) := fun c b => U4 m c b

/-- After the degree call every array of it holds what its write-backs leave: the inputs what they held, the degree
    column the folded write-backs. -/
theorem hF0 (c : Dev nD) : ∀ w : Fin cfg0.W, (dat0 (T1 m) c).arrAt w cfg0.N = T2 m c (Pipeline.arrRef spec0 w)
  | ⟨0, _⟩ => ((dat0 (T1 m) c).arrAt_in 0 rfl _).trans ((A_eq0 (T1 m) c 0).trans (U2_of_ne m c main_arg0 (by decide)).symm)
  | ⟨1, _⟩ => ((dat0 (T1 m) c).arrAt_in 1 rfl _).trans ((A_eq0 (T1 m) c 1).trans (U2_of_ne m c main_arg0 (by decide)).symm)
  | ⟨2, _⟩ => ((dat0 (T1 m) c).arrAt_in 2 rfl _).trans ((A_eq0 (T1 m) c 2).trans (U2_of_ne m c main_v2 (by decide)).symm)
  | ⟨3, _⟩ => ((dat0 (T1 m) c).arrAt_in 3 rfl _).trans ((A_eq0 (T1 m) c 3).trans (U2_of_ne m c main_v3 (by decide)).symm)
  | ⟨4, _⟩ => (U2_v4 m c).symm
/-- The degree call changes no buffer that is not one of its arrays. -/
theorem hrest0 (c : Dev nD) : ∀ b, b ∉ Finset.univ.image (Pipeline.arrRef spec0) → T2 m c b = T1 m c b :=
  fun b hb => U2_of_ne m c b fun e => hb (e ▸ Finset.mem_image.mpr ⟨4, Finset.mem_univ _, rfl⟩)

/-- After the normalising call every array of it holds what its write-backs leave: the inputs what they held, the
    result matrix the folded write-backs. -/
theorem hF1 (c : Dev nD) : ∀ w : Fin cfg1.W, (dat1 (T3 m) c).arrAt w cfg1.N = T4 m c (Pipeline.arrRef spec1 w)
  | ⟨0, _⟩ => ((dat1 (T3 m) c).arrAt_in 0 rfl _).trans ((A_eq1 (T3 m) c 0).trans (U4_of_ne m c main_arg0 (by decide)).symm)
  | ⟨1, _⟩ => ((dat1 (T3 m) c).arrAt_in 1 rfl _).trans ((A_eq1 (T3 m) c 1).trans (U4_of_ne m c main_arg0 (by decide)).symm)
  | ⟨2, _⟩ => ((dat1 (T3 m) c).arrAt_in 2 rfl _).trans ((A_eq1 (T3 m) c 2).trans (U4_of_ne m c main_v2 (by decide)).symm)
  | ⟨3, _⟩ => ((dat1 (T3 m) c).arrAt_in 3 rfl _).trans ((A_eq1 (T3 m) c 3).trans (U4_of_ne m c main_v3 (by decide)).symm)
  | ⟨4, _⟩ => ((dat1 (T3 m) c).arrAt_in 4 rfl _).trans ((A_eq1 (T3 m) c 4).trans (U4_of_ne m c main_v7 (by decide)).symm)
  | ⟨5, _⟩ => ((dat1 (T3 m) c).arrAt_in 5 rfl _).trans ((A_eq1 (T3 m) c 5).trans (U4_of_ne m c main_v8 (by decide)).symm)
  | ⟨6, _⟩ => (U4_v9 m c).symm
/-- The normalising call changes no buffer that is not one of its arrays. -/
theorem hrest1 (c : Dev nD) : ∀ b, b ∉ Finset.univ.image (Pipeline.arrRef spec1) → T4 m c b = T3 m c b :=
  fun b hb => U4_of_ne m c b fun e => hb (e ▸ Finset.mem_image.mpr ⟨6, Finset.mem_univ _, rfl⟩)

/-! ## The proof data of both calls and the state a core carries between segments -/

/-- The two calls' proof data, each at the contents its region is entered with. -/
def datas : (p : Fin 2) → (c : Dev nD) → Dat τ (Elt F) Unit ℕ (UR sig nD τ) ℕ (Pipeline.pin (pcfgs (F := F)) adm p) c
  | ⟨0, _⟩ => fun c => dat0 (T1 m) c
  | ⟨1, _⟩ => fun c => dat1 (T3 m) c
abbrev 𝒱n : Variants := Variants.none
/-- No level is assigned: no core waits on another. -/
abbrev Lv : GSem nD τ sig → Finset Unit := fun _ => ∅
abbrev lvl : GSem nD τ sig → Unit → ℕ := fun _ _ => 0
/-- Beside the buffers a core carries its generator register, at some state, and that it owes nothing. -/
abbrev Rest (c : Dev nD) : sProp 𝕄 := iprop((∃ r, prngReg c r) ∗ ∃ W, owes (c : Thread nD τ) (0 : CellTallies nD τ sig Unit) W)
/-- A stretch of host operations over the unscoped buffers from the contents `W`, the rest riding along. -/
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱n Lv lvl :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped reference of the TensorCore is among the buffers a core carries. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What a core holds at the return, its owing nothing apart: every unscoped buffer at the last contents and the
    generator register. -/
abbrev Tend (c : Dev nD) : sProp 𝕄 := iprop(StableHlo.held (c : Thread nD τ) (Pipeline.ucRefs τ sig) (U4 m c) ∗ ∃ r, prngReg c r)

/-! ## The two calls as segments -/

set_option backward.isDefEq.respectTransparency.types false in
/-- Region 0 as a segment: entered with every unscoped buffer at `U1`, left with them at `U2`. At entry the
    windows' arrays part from the other buffers, at exit they join them again at the contents the write-backs leave;
    the generator register goes into the invariant and comes back; nothing is owed and the kernel has no semaphore
    of its own. -/
def region0 : Pipeline.RegionSeg (pcfgs (F := F)) adm (datas m) () defs₀ 𝒱n Lv lvl 0 where
  win := winFacts₀0
  block_pos := block_pos0
  stage_whole := stage_whole0
  K := PEmpty
  osem k := k.elim
  ho := Pipeline.OwnSemFacts.none _
  hbody c := (body_obligation0 (T1 m) c).loose
  hwaits := Pipeline.hwaits_of_owed_zero _ _ _ _ Lv lvl 0 fun _ _ => rfl
  pre c := iprop(StableHlo.held (c : Thread nD τ) (Pipeline.ucRefs τ sig) (U1 m c) ∗ Rest c)
  post c := iprop(StableHlo.held (c : Thread nD τ) (Pipeline.ucRefs τ sig) (U2 m c) ∗ Rest c)
  X c := iprop(∃ r, prngReg c r)
  Y c := iprop(∃ r, prngReg c r)
  Z c := Pipeline.unscopedRest (Ix := Unit) (Name := ℕ) (U := UR sig nD τ) (Lvl := ℕ) spec0 c (T1 m c)
  hentry c := by
    rw [Pipeline.ownSems0_none]
    have hsplit := split0 (T1 m) c (T1 m c) ((datas m 0 c).arrAt · 0) (fun w => A_eq0 (T1 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin0 (T1 m) c)
    unfold Pipeline.ΦA
    iintro ⟨Hp, -, Hr⟩
    isplitl [Hr]; · iexact Hr
    iexact Hp
  hout c := by
    rw [Pipeline.ownSems0_none]
    refine BIBase.Entails.trans (hout0 (T1 m) c) ?_
    unfold Pipeline.ΦA
    iintro ⟨Hr, Hp⟩
    isplitl [Hp]; · iexact Hp
    isplitr; · iempintro
    iexact Hr
  hexit c := by
    have hjoin := join0 (T1 m) c (T1 m c) (fun b => U2 m c b) ((datas m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha]; · iexact Ha
      iexact Hrest
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at `U3`, left with them at `U4`. At entry the
    windows' arrays part from the other buffers, at exit they join them again at the contents the write-backs leave;
    the generator register goes into the invariant and comes back; nothing is owed and the kernel has no semaphore
    of its own. -/
def region1 : Pipeline.RegionSeg (pcfgs (F := F)) adm (datas m) () defs₀ 𝒱n Lv lvl 1 where
  win := winFacts₀1
  block_pos := block_pos1
  stage_whole := stage_whole1
  K := PEmpty
  osem k := k.elim
  ho := Pipeline.OwnSemFacts.none _
  hbody c := (body_obligation1 (T3 m) c).loose
  hwaits := Pipeline.hwaits_of_owed_zero _ _ _ _ Lv lvl 1 fun _ _ => rfl
  pre c := iprop(StableHlo.held (c : Thread nD τ) (Pipeline.ucRefs τ sig) (U3 m c) ∗ Rest c)
  post c := iprop(Tend m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (T3 m c)
  hentry c := by
    rw [Pipeline.ownSems0_none]
    have hsplit := split1 (T3 m) c (T3 m c) ((datas m 1 c).arrAt · 0) (fun w => A_eq1 (T3 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (datas m 1 c).Φ 0 = Pipeline.ΦA spec1 c from rfl]; unfold Pipeline.ΦA
    iintro ⟨Hp, -, Hr⟩
    isplitl [Hr]; · iexact Hr
    iexact Hp
  hout c := by
    rw [Pipeline.ownSems0_none, show (datas m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := join1 (T3 m) c (T3 m c) (fun b => U4 m c b) ((datas m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha]; · iexact Ha
        iexact Hrest
      iexact HY
    unfold Pipeline.Dat.owesAt Pipeline.owesWithin
    icases HO with ⟨%W, -, HO⟩; iexists W; iexact HO

/-! ## The program as four segments, and its run -/

/-- The program in order: host stretch, degree call, host stretch, normalising call. -/
abbrev segments : List (Pipeline.Seg (pcfgs (F := F)) adm (datas m) () defs₀ 𝒱n Lv lvl) :=
  [ .host (hostSeg hostOps0 hostOps0_sub hostOps0_fresh (U0 m)),
    .region (region0 m),
    .host (hostSeg hostOps1 hostOps1_sub hostOps1_fresh (U2 m)),
    .region (region1 m) ]
/-- The printed program is the run of these segments. -/
theorem main_is_run (c : Dev nD) : main (F := F) c = Pipeline.Seg.run (segments m) := (main_chain c).trans (by chain_rfl)

set_option backward.isDefEq.respectTransparency.types false in
/-- From any memory with every counter at zero, every weakly fair execution of the program on the TensorCores
    terminates, and at the end each core's result matrix holds what the normalising call's write-backs leave while
    the argument array holds what it was launched with: the four segments chained from the launch, the last state
    read against the final memory. -/
theorem run_main : θ_run defs (onTc (τ := τ) (main (F := F))) ⟨m, fun _ => 0, ρ⟩ (fun r => ∀ c : Dev nD,
      r.2.mem ((c.tc : Thread nD τ).loc main_v9) = resArr m c
      ∧ r.2.mem ((c.tc : Thread nD τ).loc main_arg0) = m ((c.tc : Thread nD τ).loc main_arg0)) :=
  Pipeline.θ_run_regions_kit (pcfgs (F := F)) adm (datas m) () cellOf_inj emb₁ defs₀ 𝒱n Lv lvl m ρ main (segments m)
    (fun c Q => by rw [main_is_run m c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m c) ∗ Rest c)) (Tₙ := Tend m)
    (hch := ⟨fun _ => .rfl, fun _ => .rfl, fun _ => .rfl, fun _ => .rfl, fun _ => .rfl⟩)
    (hinit := by
      refine Pipeline.initEach Lv lvl fun c => ?_
      rw [show unscopedBufs c (fun b => m ((c : Thread nD τ).loc b)) = StableHlo.held (c : Thread nD τ) (Pipeline.ucRefs τ sig) (U0 m c)
        from Pipeline.unscopedBufs_held c (U0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m c b)
    (hfin := fun c s' => by
      iintro ⟨⟨Hh, -⟩, HSI⟩
      unfold StableHlo.held
      imodintro
      iapply (pointsTo_read_all (Pipeline.ucRefs τ sig) (fun b => (((c : Thread nD τ)).1, b)) (U4 m c) s')
      isplitl [Hh] <;> iassumption)
    (hQ := fun s h c =>
      ⟨(h c _ (mem_uc main_v9 (by decide))).trans (U4_v9 m c),
       (h c _ (mem_uc main_arg0 (by decide))).trans (U4_main_arg0 m c)⟩)

end Cert.KernelIdeal.Frm

end
-- ==== Proof.Spec.lean ====
/-
  The mathematics of the certificate, with no program in sight. For a data matrix X (8192 rows of 128 extended
  reals) write s(a) for the squared norm of row a, X_a·X_b for the inner product of two rows, and

      E(a, b) = exp( max( s(a) + s(b) - 2·(X_a·X_b), 0 ) · (-1/512) ),

  the Gaussian similarity of the two rows. The result is the similarity matrix normalised on both sides by the
  inverse square roots of its degrees (the sums of its rows, or equally of its columns: E is symmetric).
  Two arrangements of that one function are stated here: the one a whole-array computation produces (a column sum,
  a quotient by 512 of the negated distance, the two normalisers multiplied first) and the one a blocked
  computation produces (row sums accumulated over eight column blocks of 1024, a product with -1/512, the two
  normalisers multiplied in one after the other); `blocked_eq_whole` says they agree.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- The float words the two programs spell: 2, 0, -1/512, 512 and 1. -/
def two : EReal := Ideal.ofBits .f32 0x40000000#32
def zero : EReal := Ideal.ofBits .f32 0x00000000#32
def negInv512 : EReal := Ideal.ofBits .f32 0xBB000000#32
def c512 : EReal := Ideal.ofBits .f32 0x44000000#32
def one : EReal := Ideal.ofBits .f32 0x3F800000#32

abbrev Mat : Type := (⟨2, ![8192, 128]⟩ : Shape).Idx → EReal
abbrev Col : Type := (⟨2, ![8192, 1]⟩ : Shape).Idx → EReal
abbrev Row : Type := (⟨2, ![1, 8192]⟩ : Shape).Idx → EReal
abbrev Sq : Type := (⟨2, ![8192, 8192]⟩ : Shape).Idx → EReal

/-- The inner product of rows a and b. -/
def dot (X : Mat) (a b : Fin 8192) : EReal := ∑ k : Fin 128, X (ix2 a k) * X (ix2 b k)

/-- The squared norm of row a, as a sum started from the zero word. -/
def sqn (X : Mat) (a : Fin 8192) : EReal := zero + ∑ k : Fin 128, X (ix2 a k) * X (ix2 a k)

/-! ## The whole-array arrangement -/

/-- The similarity, with the clamped distance negated and divided by 512. -/
def simW (X : Mat) (a b : Fin 8192) : EReal :=
  Ideal.exp (Ideal.div (-(max ((sqn X a + sqn X b) - two * dot X a b) zero)) c512)

/-- The degree of column b: the sum down the column, started from the zero word. -/
def degW (X : Mat) (b : Fin 8192) : EReal := zero + ∑ a : Fin 8192, simW X a b

/-- The normaliser of index a. -/
def normW (X : Mat) (a : Fin 8192) : EReal := Ideal.div one (Ideal.sqrt (degW X a))

/-- The result of the whole-array arrangement. -/
def whole (X : Mat) : Sq := fun i => simW X (i 0) (i 1) * (normW X (i 0) * normW X (i 1))

/-! ## The blocked arrangement, over a column and a row of squared norms given apart -/

/-- The similarity of rows a and b from a column `sc` and a row `sr` of squared norms: the clamped distance times -1/512. -/
def simB (X : Mat) (sc : Col) (sr : Row) (a b : Fin 8192) : EReal :=
  Ideal.exp (max ((sc (ix2 a 0) + sr (ix2 0 b)) - two * dot X a b) zero * negInv512)

/-- The sum of row a's similarities over column block j (columns 1024·j … 1024·j + 1023). -/
def blockSum (X : Mat) (sc : Col) (sr : Row) (a : Fin 8192) (j : ℕ) : EReal :=
  ∑ jj : Fin 1024, simB X sc sr a ⟨(j * 1024 + jj.val) % 8192, Nat.mod_lt _ (by norm_num)⟩

/-- The accumulator of row a after column blocks 0 … j: started from the zero word, one block sum added at a time. -/
def accB (X : Mat) (sc : Col) (sr : Row) (a : Fin 8192) : ℕ → EReal
  | 0 => zero + blockSum X sc sr a 0
  | j + 1 => accB X sc sr a j + blockSum X sc sr a (j + 1)

/-- The degree of row a: the accumulator after the eighth block. -/
def degB (X : Mat) (sc : Col) (sr : Row) (a : Fin 8192) : EReal := accB X sc sr a 7

/-- The result of the blocked arrangement from a column `dc` and a row `dr` of normalisers. -/
def blocked (X : Mat) (sc : Col) (sr : Row) (dc : Col) (dr : Row) : Sq :=
  fun i => simB X sc sr (i 0) (i 1) * dc (ix2 (i 0) 0) * dr (ix2 0 (i 1))

/-- The normaliser the blocked arrangement forms from a degree. -/
def normOf (d : EReal) : EReal := Ideal.div one (Ideal.sqrt d)

/-! ## The two arrangements agree -/

/-- The word 0xBB000000 is the real -1/512. -/
theorem negInv512_eq : negInv512 = ((-(1 / 512) : ℝ) : EReal) := by
  unfold negInv512
  simp [Ideal.ofBits, Ideal.ieee, -EReal.coe_mul]; norm_num

/-- The word 0x44000000 is the real 512. -/
theorem c512_eq : c512 = ((512 : ℝ) : EReal) := by
  unfold c512
  simp [Ideal.ofBits, Ideal.ieee, -EReal.coe_mul]; norm_num

/-- A product with the word -1/512 is the quotient of the negation by the word 512, on every extended real. -/
theorem mul_negInv512 (m : EReal) : m * negInv512 = Ideal.div (-m) c512 := by
  rw [negInv512_eq, c512_eq, Ideal.div_coe (by norm_num : (512 : ℝ) ≠ 0), EReal.coe_neg, mul_neg, neg_mul]

/-- With both squared-norm arrays read off `sqn`, the blocked similarity is the whole-array one. -/
theorem simB_eq_simW (X : Mat) (sc : Col) (sr : Row) (hsc : ∀ a, sc (ix2 a 0) = sqn X a) (hsr : ∀ b, sr (ix2 0 b) = sqn X b)
    (a b : Fin 8192) : simB X sc sr a b = simW X a b := by
  unfold simB simW
  rw [hsc a, hsr b, mul_negInv512]

/-- The inner product is symmetric: the products commute term by term. -/
theorem dot_comm (X : Mat) (a b : Fin 8192) : dot X a b = dot X b a := by
  unfold dot
  exact Finset.sum_congr rfl (fun k _ => mul_comm _ _)

/-- The similarity is symmetric. -/
theorem simW_symm (X : Mat) (a b : Fin 8192) : simW X a b = simW X b a := by
  unfold simW
  rw [dot_comm X a b, add_comm (sqn X a) (sqn X b)]

/-- The blocked similarity of row a read at a natural-number column, the column taken modulo 8192. -/
def rowAt (X : Mat) (sc : Col) (sr : Row) (a : Fin 8192) (n : ℕ) : EReal :=
  simB X sc sr a ⟨n % 8192, Nat.mod_lt _ (by norm_num)⟩

/-- A block sum is a sum over a range of 1024 consecutive columns. -/
theorem blockSum_eq_range (X : Mat) (sc : Col) (sr : Row) (a : Fin 8192) (j : ℕ) :
    blockSum X sc sr a j = ∑ x ∈ Finset.range 1024, rowAt X sc sr a (j * 1024 + x) := by
  unfold blockSum
  exact Fin.sum_univ_eq_sum_range (fun x => rowAt X sc sr a (j * 1024 + x)) 1024

/-- The accumulator after blocks 0 … j is the zero word plus the sum over the first (j+1)·1024 columns:
    consecutive ranges concatenate, and addition is associative. -/
theorem accB_eq_range (X : Mat) (sc : Col) (sr : Row) (a : Fin 8192) (j : ℕ) :
    accB X sc sr a j = zero + ∑ x ∈ Finset.range ((j + 1) * 1024), rowAt X sc sr a x := by
  induction j with
  | zero =>
    show zero + blockSum X sc sr a 0 = _
    rw [blockSum_eq_range]
    simp only [Nat.zero_mul, Nat.zero_add, Nat.one_mul]
  | succ j ih =>
    show accB X sc sr a j + blockSum X sc sr a (j + 1) = _
    have hn : (j + 1 + 1) * 1024 = (j + 1) * 1024 + 1024 := by omega
    rw [ih, blockSum_eq_range, add_assoc, hn, Finset.sum_range_add]

/-- The accumulated row sum is the column sum. -/
theorem degB_eq_degW (X : Mat) (sc : Col) (sr : Row) (hsc : ∀ a, sc (ix2 a 0) = sqn X a) (hsr : ∀ b, sr (ix2 0 b) = sqn X b)
    (a : Fin 8192) : degB X sc sr a = degW X a := by
  unfold degB degW
  rw [accB_eq_range]
  have hn : (7 + 1) * 1024 = 8192 := by norm_num
  rw [hn, ← Fin.sum_univ_eq_sum_range (fun x => rowAt X sc sr a x) 8192]
  refine congrArg (zero + ·) (Finset.sum_congr rfl (fun b _ => ?_))
  have hb : (⟨b.val % 8192, Nat.mod_lt _ (by norm_num)⟩ : Fin 8192) = b := Fin.ext (Nat.mod_eq_of_lt b.isLt)
  show simB X sc sr a ⟨b.val % 8192, Nat.mod_lt _ (by norm_num)⟩ = simW X b a
  rw [hb, simB_eq_simW X sc sr hsc hsr, simW_symm]

/-- THE LAW: from squared norms read off `sqn` and normalisers formed from the accumulated degrees, the blocked
    arrangement computes the whole-array result. -/
theorem blocked_eq_whole (X : Mat) (sc : Col) (sr : Row) (dc : Col) (dr : Row)
    (hsc : ∀ a, sc (ix2 a 0) = sqn X a) (hsr : ∀ b, sr (ix2 0 b) = sqn X b)
    (hdc : ∀ a, dc (ix2 a 0) = normOf (degB X sc sr a)) (hdr : ∀ b, dr (ix2 0 b) = normOf (degB X sc sr b)) :
    blocked X sc sr dc dr = whole X := by
  funext i
  obtain ⟨a, b, rfl⟩ : ∃ a b, i = ix2 a b := ⟨i 0, i 1, eq_ix2 i⟩
  show simB X sc sr a b * dc (ix2 a 0) * dr (ix2 0 b) = simW X a b * (normW X a * normW X b)
  rw [hdc, hdr, simB_eq_simW X sc sr hsc hsr, degB_eq_degW X sc sr hsc hsr, degB_eq_degW X sc sr hsc hsr, mul_assoc]
  rfl

end Cert.Spec

end
-- ==== Proof.KernelIdeal.Value0Pay.lean ====
/-
  The arithmetic of the degree call's body, read one entry at a time over the extended reals. The body's update of the
  scratch column adds, to entry p, the sum over the 1024 columns q of the block of the similarity of row p of the row block
  and row q of the column block: the exponential of the clamped distance times -1/512, the distance formed from the two
  squared-norm blocks and twice the inner product of the two rows. The reset stores the zero word everywhere.
-/
import proofs.«138943_j41875931136544_1_alg».proof.Proof.Gen.KernelIdeal.Skeleton
import proofs.«138943_j41875931136544_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Pay

open Idealize.ShloMosaic Idealize.ShloMosaic.ValueIdx
open Cert.KernelIdeal Cert.KernelIdeal.Gen

/-! ## The layout steps of the payload at an entry -/

/-- A column of 1024 entries cast to a 1024×1 block reads entry p at (p, 0): the same row-major position. -/
theorem cast_col_apply {α : Type} (w : (⟨1, ![1024]⟩ : Shape).Idx → α) (h : (⟨1, ![1024]⟩ : Shape).ShapeCasts ⟨2, ![1024, 1]⟩) (p : Fin 1024) :
    shapeCast ⟨2, ![1024, 1]⟩ w h (ix2 p (0 : Fin 1)) = w (ix1 p) :=
  shapeCast_apply w h (ix2 p (0 : Fin 1)) (ix1 p) (by
    rw [Shape.rowMajor_val_one, Shape.rowMajor_val_two]
    show p.val = p.val * 1 + 0
    omega)

/-- A 1024×1 column broadcast along the columns reads, at (p, q), the column at (p, 0). -/
theorem bcast_col_apply {α : Type} (v : (⟨2, ![1024, 1]⟩ : Shape).Idx → α) (h : (⟨2, ![1024, 1]⟩ : Shape).Broadcasts ⟨2, ![1024, 1024]⟩) (p q : Fin 1024) :
    broadcastTo ⟨2, ![1024, 1024]⟩ v h (ix2 p q) = v (ix2 p (0 : Fin 1)) :=
  broadcastTo_apply v h (ix2 p q) (ix2 p (0 : Fin 1)) (fun a => match a with
    | ⟨0, _⟩ => by show p.val = if (1024 : Nat) = 1 then 0 else p.val; rw [if_neg (by decide)]
    | ⟨1, _⟩ => by show 0 = if (1 : Nat) = 1 then 0 else q.val; rw [if_pos rfl])

/-- A 1×1024 row broadcast along the rows reads, at (p, q), the row at (0, q). -/
theorem bcast_row_apply {α : Type} (v : (⟨2, ![1, 1024]⟩ : Shape).Idx → α) (h : (⟨2, ![1, 1024]⟩ : Shape).Broadcasts ⟨2, ![1024, 1024]⟩) (p q : Fin 1024) :
    broadcastTo ⟨2, ![1024, 1024]⟩ v h (ix2 p q) = v (ix2 (0 : Fin 1) q) :=
  broadcastTo_apply v h (ix2 p q) (ix2 (0 : Fin 1) q) (fun a => match a with
    | ⟨0, _⟩ => by show 0 = if (1 : Nat) = 1 then 0 else p.val; rw [if_pos rfl]
    | ⟨1, _⟩ => by show q.val = if (1024 : Nat) = 1 then 0 else q.val; rw [if_neg (by decide)])

/-- The transposed 1024×128 block reads, at (k, q), the block at (q, k). -/
theorem transp_apply {α : Type} (x : (⟨2, ![1024, 128]⟩ : Shape).Idx → α) (h : (⟨2, ![1024, 128]⟩ : Shape).Transposes [1, 0] ⟨2, ![128, 1024]⟩) (k : Fin 128) (q : Fin 1024) :
    transpose ⟨2, ![128, 1024]⟩ [1, 0] x h (ix2 k q) = x (ix2 q k) :=
  transpose_apply [1, 0] x h (ix2 k q) (ix2 q k) (fun b => match b with
    | ⟨0, _⟩ => rfl
    | ⟨1, _⟩ => rfl)

/-- The sum along the columns of a 1024×1024 block, at the extended reals, read at entry p: the sum over q of the block at (p, q). -/
theorem rowsum_apply (v : FVec Ideal S1024x1024 .f32) (hφ : FKind.Formats .f32)
    (hacc : (0x00000000#32 : BitVec 32) = 0x00000000#32) (p : Fin 1024) :
    multiReduction .add [1] S1024 v 0x00000000#32 reduces_S1024x1024_S1024 hφ hacc (ix1 p) = ∑ q : Fin 1024, v (ix2 p q) := by
  refine (Ideal.multiReduction_add_single v 0x00000000#32 reduces_S1024x1024_S1024 hφ hacc (ix1 p)).trans ?_
  refine Finset.sum_congr rfl fun q _ => congrArg v ?_
  funext a
  match a with
  | ⟨0, _⟩ => rfl
  | ⟨1, _⟩ => rfl

/-! ## The inner products: the matrix product of the row block with the transposed column block -/

theorem lhs_ax0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_ax1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_ax0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_ax1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product into the zero block, at (p, q): the sum over the 128 lanes of the left block at (p, k) times the right at (k, q). -/
theorem mm_apply (a : FVec Ideal S1024x128 .bf16) (b : FVec Ideal S128x1024 .bf16) (p q : Fin 1024) :
    matmul dot_S1024x128_S128x1024_S1024x1024_1_0_0_1_n_n none a b (constant (F := Ideal) S1024x1024 .f32 0x00000000#32) (ix2 p q)
      = ∑ k : Fin 128, a (ix2 p k) * b (ix2 k q) := by
  refine (Ideal.matmul_constant_zero_apply dot_S1024x128_S128x1024_S1024x1024_1_0_0_1_n_n none a b (ix2 p q)).trans ?_
  rw [← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_ax0 _ _
    | ⟨1, _⟩ => exact (lhs_ax1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_ax0 _ _).trans hk
    | ⟨1, _⟩ => exact rhs_ax1 _ _)
  rw [el, er]

/-- The exponential of a block, at the extended reals, entry by entry. -/
theorem exp_apply {s : Shape} {φ : FTy} (a : FVec Ideal s φ) (i : s.Idx) : exp a i = Ideal.exp (a i) := rfl

/-! ## The two payloads at an entry -/

/-- The reset stores the zero word at every entry. -/
theorem k0_pay1_apply (p : Fin 1024) : (k0_pay1 (F := Ideal)) (ix2 p (0 : Fin 1)) = Cert.Spec.zero := by
  unfold k0_pay1
  exact (congrFun (shapeCast_self _ shapeCasts_S1024x1_S1024x1) (ix2 p (0 : Fin 1))).trans rfl

/-- The update: entry p of the scratch column plus the sum, over the block's 1024 columns, of the similarities of row p. -/
theorem k0_pay2_apply (x0 x1 : Vec Ideal S1024x128 .f32) (x2 : Vec Ideal S1024x1 .f32) (x3 : Vec Ideal S1x1024 .f32)
    (s : Vec Ideal S1024x1 .f32) (p : Fin 1024) :
    k0_pay2 (F := Ideal) x0 x1 x2 x3 s (ix2 p (0 : Fin 1))
      = s (ix2 p (0 : Fin 1)) + ∑ q : Fin 1024,
          Ideal.exp (max ((x2 (ix2 p (0 : Fin 1)) + x3 (ix2 (0 : Fin 1) q))
            - Cert.Spec.two * ∑ k : Fin 128, x0 (ix2 p k) * x1 (ix2 q k)) Cert.Spec.zero * Cert.Spec.negInv512) := by
  unfold k0_pay2
  refine (congrFun (shapeCast_self _ shapeCasts_S1024x1_S1024x1) (ix2 p (0 : Fin 1))).trans ?_
  refine (addf_apply _ _ _).trans ?_
  refine congrArg (s (ix2 p (0 : Fin 1)) + ·) ?_
  refine (cast_col_apply _ shapeCasts_S1024_S1024x1 p).trans ?_
  refine (rowsum_apply _ (.inl rfl) rfl p).trans ?_
  refine Finset.sum_congr rfl fun q _ => ?_
  refine (exp_apply _ _).trans (congrArg Ideal.exp ?_)
  refine (mulf_apply _ _ _).trans (congrArg₂ (· * ·) ?_ rfl)
  refine (maximumf_apply _ _ _).trans (congrArg₂ max ?_ rfl)
  refine (subf_apply _ _ _).trans (congrArg₂ (· - ·) ?_ ?_)
  · refine (addf_apply _ _ _).trans (congrArg₂ (· + ·) ?_ ?_)
    · exact (bcast_col_apply _ broadcasts_S1024x1_S1024x1024 p q).trans (congrFun (shapeCast_self x2 shapeCasts_S1024x1_S1024x1) _)
    · exact (bcast_row_apply _ broadcasts_S1x1024_S1024x1024 p q).trans (congrFun (shapeCast_self x3 shapeCasts_S1x1024_S1x1024) _)
  · refine (mulf_apply _ _ _).trans (congrArg₂ (· * ·) rfl ?_)
    refine (mm_apply _ _ p q).trans (Finset.sum_congr rfl fun k _ => ?_)
    exact congrArg₂ (· * ·) rfl (transp_apply _ transposes_S1024x128_p1_0_S128x1024 k q)

end Cert.KernelIdeal.Pay

end
-- ==== Proof.KernelIdeal.Value0.lean ====
/-
  What the degree call leaves in the degree column, at the exact extended reals: entry a is the accumulator of
  row a after its eighth column block — the degree of the blocked arrangement of the specification.

  The road: each case of the body leaves in the scratch column (and, at a last column block, in the output block)
  the update of what it found there, the first column block starting from the zero column; an input block read at a
  coordinate is its array at block index × 1024 + coordinate; so by induction on the grid point the scratch column
  after point n holds, at entry p, the accumulator of row (n / 8)·1024 + p after column blocks 0 … n % 8; the
  points with n % 8 = 7 write their block back, and their blocks tile the column.
-/
import proofs.«138943_j41875931136544_1_alg».proof.Proof.KernelIdeal.Region0
import proofs.«138943_j41875931136544_1_alg».proof.Proof.KernelIdeal.Value0Pay
import proofs.«138943_j41875931136544_1_alg».proof.Proof.Spec
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx Idealize.ShloMosaic.Tactic
open Idealize.SL Idealize.SL.Sem
open Idealize.ShloMosaic.Pipeline (Dat Cfg Window)
open Cert.KernelIdeal Cert.KernelIdeal.Gen Cert.KernelIdeal.Frm

namespace Deg

section Pieces
variable {F : FTy → Type} [FloatOps F]

/-- The zero offset of every whole-buffer access of the body. -/
theorem hz : (![0, 0] : Fin 2 → Nat) = fun _ => 0 := funext fun a => by fin_cases a <;> rfl

/-- An inner column block leaves in the scratch column the update of what it found there: its one covering store. -/
theorem sout_B (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : ¬cond0_1 i)
    (x0 x1 : Vec F S1024x128 .f32) (x2 : Vec F S1024x1 .f32) (x3 : Vec F S1x1024 .f32) (xs0 : Vec F S1024x1 .f32) :
    sout0_B_0 c i arg2 harg2 arg3 harg3 arg4 harg4 arg5 harg5 arg6 harg6 arg7 harg7 hc0 hc1 x0 x1 x2 x3 xs0 = k0_pay2 x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, View.ld_unit_zero (S := S1024x128) hz, View.ld_unit_zero (S := S1024x1) hz, View.ld_unit_zero (S := S1x1024) hz]

/-- The last column block leaves the same update in the scratch column … -/
theorem sout_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) :
    sout0_C_0 c i arg2 harg2 arg3 harg3 arg4 harg4 arg5 harg5 arg6 harg6 arg7 harg7 hc0 hc1 x0 x1 x2 x3 xs0 = k0_pay2 x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, View.ld_unit_zero (S := S1024x128) hz, View.ld_unit_zero (S := S1024x1) hz, View.ld_unit_zero (S := S1x1024) hz]

/-- … and copies it into the output block: the copy loads the scratch column after its update. -/
theorem out_C (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : ¬cond0_0 i) (hc1 : cond0_1 i)
    (x0 x1 : Vec F S1024x128 .f32) (x2 : Vec F S1024x1 .f32) (x3 : Vec F S1x1024 .f32) (xs0 : Vec F S1024x1 .f32) :
    out0_C_4 c i arg2 harg2 arg3 harg3 arg4 harg4 arg5 harg5 arg6 harg6 arg7 harg7 hc0 hc1 x0 x1 x2 x3 xs0 = k0_pay2 x0 x1 x2 x3 xs0 := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero hz]
  simp only [View.readCov_unit_zero (S := S1024x1) _ hz, View.readAt_eq_ld, harg2.read_unread, harg3.read_unread, harg4.read_unread, harg5.read_unread, harg6.read_unread, harg7.read_unread, View.ld_unit_zero (S := S1024x128) hz, View.ld_unit_zero (S := S1024x1) hz, View.ld_unit_zero (S := S1x1024) hz]

/-- The first column block resets the scratch column to the zero column and then updates it: the later store covers, and the
    load between the two reads the reset value. -/
theorem sout_A (c : Dev nD) (i : grid0.Coords) (arg2 : Memref sig .tc .vmem S1024x128 .f32) (harg2 : arg2.IsWhole) (arg3 : Memref sig .tc .vmem S1024x128 .f32) (harg3 : arg3.IsWhole) (arg4 : Memref sig .tc .vmem S1024x1 .f32) (harg4 : arg4.IsWhole) (arg5 : Memref sig .tc .vmem S1x1024 .f32) (harg5 : arg5.IsWhole) (arg6 : Memref sig .tc .vmem S1024x1 .f32) (harg6 : arg6.IsWhole) (arg7 : Memref sig .tc .vmem S1024x1 .f32) (harg7 : arg7.IsWhole) (hc0 : cond0_0 i) (hc1 : ¬cond0_1 i)
    (x0 x1 : Vec F S1024x128 .f32) (x2 : Vec F S1024x1 .f32) (x3 : Vec F S1x1024 .f32) :
    sout0_A_0 c i arg2 harg2 arg3 harg3 arg4 harg4 arg5 harg5 arg6 harg6 arg7 harg7 hc0 hc1 x0 x1 x2 x3 = k0_pay2 x0 x1 x2 x3 (k0_pay1 (F := F)) := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S1024x1) hz]
  simp only [View.readCov_unit_zero (S := S1024x1) _ hz, View.readAt_eq_ld, harg2.read_unread, harg3.read_unread, harg4.read_unread, harg5.read_unread, harg6.read_unread, harg7.read_unread, View.ld_unit_zero (S := S1024x128) hz, View.ld_unit_zero (S := S1024x1) hz, View.ld_unit_zero (S := S1x1024) hz]

end Pieces

section Blocks

variable (V : (c : Dev nD) → (b : Ref sig .tc) → Buf (Elt Ideal) ((c : Thread nD τ).loc b))

/-- The three arrays the degree call reads, as the region finds them: the data matrix, the column and the row of squared norms. -/
abbrev arrX (c : Dev nD) : Vec Ideal S8192x128 .f32 := V c main_arg0
abbrev arrC (c : Dev nD) : Vec Ideal S8192x1 .f32 := V c main_v2
abbrev arrR (c : Dev nD) : Vec Ideal S1x8192 .f32 := V c main_v3

/-- The four input blocks at point t: the row block and the column block of the data matrix, the block of the column and the
    block of the row of squared norms. -/
abbrev blk0 (c : Dev nD) (t : Fin cfg0.N) : Vec Ideal S1024x128 .f32 := iblk0 V c 0 t
abbrev blk1 (c : Dev nD) (t : Fin cfg0.N) : Vec Ideal S1024x128 .f32 := iblk0 V c 1 t
abbrev blk2 (c : Dev nD) (t : Fin cfg0.N) : Vec Ideal S1024x1 .f32 := iblk0 V c 2 t
abbrev blk3 (c : Dev nD) (t : Fin cfg0.N) : Vec Ideal S1x1024 .f32 := iblk0 V c 3 t

/-- The index maps of the degree call, decided once over its 64 points: at point t the row block is t / 8 and the column block t % 8. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0 :=
  (by decide +kernel : ∀ t : Fin grid0.N, _)

/-- Row p of row block n / 8, as a row of the whole matrix. -/
def rowAt (n : ℕ) (hn : n < cfg0.N) (p : Fin 1024) : Fin 8192 :=
  ⟨n / 8 * 1024 + p.val, by have := lt_of_lt_of_eq hn (show cfg0.N = 64 from N_0); omega⟩

/-- Row q of column block n % 8, as a row of the whole matrix. -/
def colAt (n : ℕ) (q : Fin 1024) : Fin 8192 :=
  ⟨n % 8 * 1024 + q.val, by omega⟩

/-- The row block of the data matrix at point t holds rows (t / 8)·1024 + p. -/
theorem blk0_apply (c : Dev nD) (t : Fin cfg0.N) (p : Fin 1024) (k : Fin 128) :
    blk0 V c t (ix2 p k) = arrX V c (ix2 (rowAt t.val t.isLt p) k) := by
  obtain ⟨e00, e01, e10, e11, e20, e21, e30, e31, e40, e41⟩ := idx_facts t
  show arrX V c (((cfg0.win 0).blk t).view.emb (ix2 p k)) = _
  congr 1
  funext a; apply Fin.ext
  match a with
  | ⟨0, _⟩ => show win0_0.index t (0 : Fin 2) * 1024 + 1 * p.val = t.val / 8 * 1024 + p.val; rw [e00]; omega
  | ⟨1, _⟩ => show win0_0.index t (1 : Fin 2) * 128 + 1 * k.val = k.val; rw [e01]; omega

/-- The column block of the data matrix at point t holds rows (t % 8)·1024 + q. -/
theorem blk1_apply (c : Dev nD) (t : Fin cfg0.N) (q : Fin 1024) (k : Fin 128) :
    blk1 V c t (ix2 q k) = arrX V c (ix2 (colAt t.val q) k) := by
  obtain ⟨e00, e01, e10, e11, e20, e21, e30, e31, e40, e41⟩ := idx_facts t
  show arrX V c (((cfg0.win 1).blk t).view.emb (ix2 q k)) = _
  congr 1
  funext a; apply Fin.ext
  match a with
  | ⟨0, _⟩ => show win0_1.index t (0 : Fin 2) * 1024 + 1 * q.val = t.val % 8 * 1024 + q.val; rw [e10]; omega
  | ⟨1, _⟩ => show win0_1.index t (1 : Fin 2) * 128 + 1 * k.val = k.val; rw [e11]; omega

/-- The block of the column of squared norms at point t holds entries (t / 8)·1024 + p. -/
theorem blk2_apply (c : Dev nD) (t : Fin cfg0.N) (p : Fin 1024) :
    blk2 V c t (ix2 p (0 : Fin 1)) = arrC V c (ix2 (rowAt t.val t.isLt p) (0 : Fin 1)) := by
  obtain ⟨e00, e01, e10, e11, e20, e21, e30, e31, e40, e41⟩ := idx_facts t
  show arrC V c (((cfg0.win 2).blk t).view.emb (ix2 p (0 : Fin 1))) = _
  congr 1
  funext a; apply Fin.ext
  match a with
  | ⟨0, _⟩ => show win0_2.index t (0 : Fin 2) * 1024 + 1 * p.val = t.val / 8 * 1024 + p.val; rw [e20]; omega
  | ⟨1, _⟩ => show win0_2.index t (1 : Fin 2) * 1 + 1 * 0 = 0; rw [e21]

/-- The block of the row of squared norms at point t holds entries (t % 8)·1024 + q. -/
theorem blk3_apply (c : Dev nD) (t : Fin cfg0.N) (q : Fin 1024) :
    blk3 V c t (ix2 (0 : Fin 1) q) = arrR V c (ix2 (0 : Fin 1) (colAt t.val q)) := by
  obtain ⟨e00, e01, e10, e11, e20, e21, e30, e31, e40, e41⟩ := idx_facts t
  show arrR V c (((cfg0.win 3).blk t).view.emb (ix2 (0 : Fin 1) q)) = _
  congr 1
  funext a; apply Fin.ext
  match a with
  | ⟨0, _⟩ => show win0_3.index t (0 : Fin 2) * 1 + 1 * 0 = 0; rw [e30]
  | ⟨1, _⟩ => show win0_3.index t (1 : Fin 2) * 1024 + 1 * q.val = t.val % 8 * 1024 + q.val; rw [e31]; omega

end Blocks

section Invariant

variable (V : (c : Dev nD) → (b : Ref sig .tc) → Buf (Elt Ideal) ((c : Thread nD τ).loc b))

/-- One term of the body's row sums at point t is the similarity of row (t / 8)·1024 + p and row (t % 8)·1024 + q of the whole
    matrix: each block entry is the array's entry under it, and a column below 8192 is its own remainder. -/
theorem term_eq (c : Dev nD) (t : Fin cfg0.N) (p q : Fin 1024) :
    Ideal.exp (max ((blk2 V c t (ix2 p (0 : Fin 1)) + blk3 V c t (ix2 (0 : Fin 1) q))
        - Cert.Spec.two * ∑ k : Fin 128, blk0 V c t (ix2 p k) * blk1 V c t (ix2 q k)) Cert.Spec.zero * Cert.Spec.negInv512)
      = Cert.Spec.simB (arrX V c) (arrC V c) (arrR V c) (rowAt t.val t.isLt p)
          ⟨(t.val % 8 * 1024 + q.val) % 8192, Nat.mod_lt _ (by norm_num)⟩ := by
  have hb : (⟨(t.val % 8 * 1024 + q.val) % 8192, Nat.mod_lt _ (by norm_num)⟩ : Fin 8192) = colAt t.val q :=
    Fin.ext (Nat.mod_eq_of_lt (by have := q.isLt; omega))
  rw [hb, blk2_apply V c t p, blk3_apply V c t q]
  unfold Cert.Spec.simB Cert.Spec.dot
  refine congrArg (fun z => Ideal.exp (max ((arrC V c (ix2 (rowAt t.val t.isLt p) (0 : Fin 1)) + arrR V c (ix2 (0 : Fin 1) (colAt t.val q))) - Cert.Spec.two * z) Cert.Spec.zero * Cert.Spec.negInv512)) ?_
  exact Finset.sum_congr rfl fun k _ => by rw [blk0_apply V c t p k, blk1_apply V c t q k]

/-- The body's update at point t adds to entry p of the scratch column the sum of row (t / 8)·1024 + p's similarities over column block t % 8. -/
theorem upd_eq (c : Dev nD) (t : Fin cfg0.N) (s : Vec Ideal S1024x1 .f32) (p : Fin 1024) :
    k0_pay2 (F := Ideal) (blk0 V c t) (blk1 V c t) (blk2 V c t) (blk3 V c t) s (ix2 p (0 : Fin 1))
      = s (ix2 p (0 : Fin 1)) + Cert.Spec.blockSum (arrX V c) (arrC V c) (arrR V c) (rowAt t.val t.isLt p) (t.val % 8) := by
  refine (Cert.KernelIdeal.Pay.k0_pay2_apply (blk0 V c t) (blk1 V c t) (blk2 V c t) (blk3 V c t) s p).trans ?_
  unfold Cert.Spec.blockSum
  exact congrArg (s (ix2 p (0 : Fin 1)) + ·) (Finset.sum_congr rfl fun q _ => term_eq V c t p q)

/-- THE INVARIANT: after the body at point n, entry p of the scratch column is the accumulator of row (n / 8)·1024 + p after
    column blocks 0 … n % 8. By induction on the point: a first column block starts from the zero word, every other one adds its
    block sum to what the point before left, which is in the same row block. -/
theorem scratch_eq (c : Dev nD) (n : ℕ) : ∀ (hn : n < cfg0.N) (p : Fin 1024),
    (outsAt0 V c n hn).2 (ix2 p (0 : Fin 1))
      = Cert.Spec.accB (arrX V c) (arrC V c) (arrR V c) (rowAt n hn p) (n % 8) := by
  induction n with
  | zero =>
    intro hn p
    have h0 : (⟨0, hn⟩ : Fin cfg0.N).val % 8 = 0 := Nat.zero_mod _
    have h1 : ¬(⟨0, hn⟩ : Fin cfg0.N).val % 8 = 7 := fun h => absurd (h0.symm.trans h) (by decide)
    rw [outsAt0_A V c ⟨0, hn⟩ h0 h1]
    dsimp only
    refine (congrFun (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr h0) (fun h => h1 ((hcond0_1 ⟨0, hn⟩).mp h)) (blk0 V c ⟨0, hn⟩) (blk1 V c ⟨0, hn⟩) (blk2 V c ⟨0, hn⟩) (blk3 V c ⟨0, hn⟩)) (ix2 p (0 : Fin 1))).trans ?_
    refine (upd_eq V c ⟨0, hn⟩ (k0_pay1 (F := Ideal)) p).trans ?_
    rw [Cert.KernelIdeal.Pay.k0_pay1_apply p]
    rfl
  | succ n ih =>
    intro hn p
    have hN : n + 1 < 64 := lt_of_lt_of_eq hn (show cfg0.N = 64 from N_0)
    have hprev := ih (Nat.lt_of_succ_lt hn) p
    by_cases h0 : (n + 1) % 8 = 0
    · have h1 : ¬(n + 1) % 8 = 7 := by omega
      rw [outsAt0_A V c ⟨n + 1, hn⟩ h0 h1]
      dsimp only
      refine (congrFun (sout_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (fun h => h1 ((hcond0_1 ⟨n + 1, hn⟩).mp h)) (blk0 V c ⟨n + 1, hn⟩) (blk1 V c ⟨n + 1, hn⟩) (blk2 V c ⟨n + 1, hn⟩) (blk3 V c ⟨n + 1, hn⟩)) (ix2 p (0 : Fin 1))).trans ?_
      refine (upd_eq V c ⟨n + 1, hn⟩ (k0_pay1 (F := Ideal)) p).trans ?_
      rw [Cert.KernelIdeal.Pay.k0_pay1_apply p]
      show Cert.Spec.zero + Cert.Spec.blockSum (arrX V c) (arrC V c) (arrR V c) (rowAt (n + 1) hn p) ((n + 1) % 8) = Cert.Spec.accB (arrX V c) (arrC V c) (arrR V c) (rowAt (n + 1) hn p) ((n + 1) % 8)
      rw [h0]
      rfl
    · have hj : (n + 1) % 8 = n % 8 + 1 := by omega
      have hrow : rowAt n (Nat.lt_of_succ_lt hn) p = rowAt (n + 1) hn p := Fin.ext (by show n / 8 * 1024 + p.val = (n + 1) / 8 * 1024 + p.val; omega)
      have hstep : (outsAt0 V c n (Nat.lt_of_succ_lt hn)).2 (ix2 p (0 : Fin 1)) + Cert.Spec.blockSum (arrX V c) (arrC V c) (arrR V c) (rowAt (n + 1) hn p) ((n + 1) % 8)
          = Cert.Spec.accB (arrX V c) (arrC V c) (arrR V c) (rowAt (n + 1) hn p) ((n + 1) % 8) := by
        rw [hprev, hrow, hj]
        rfl
      by_cases h1 : (n + 1) % 8 = 7
      · rw [outsAt0_C V c ⟨n + 1, hn⟩ h0 h1]
        dsimp only
        refine (congrFun (sout_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (blk0 V c ⟨n + 1, hn⟩) (blk1 V c ⟨n + 1, hn⟩) (blk2 V c ⟨n + 1, hn⟩) (blk3 V c ⟨n + 1, hn⟩) (outsAt0 V c n (Nat.lt_of_succ_lt hn)).2) (ix2 p (0 : Fin 1))).trans ?_
        exact (upd_eq V c ⟨n + 1, hn⟩ (outsAt0 V c n (Nat.lt_of_succ_lt hn)).2 p).trans hstep
      · rw [outsAt0_B V c ⟨n + 1, hn⟩ h0 h1]
        dsimp only
        refine (congrFun (sout_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (blk0 V c ⟨n + 1, hn⟩) (blk1 V c ⟨n + 1, hn⟩) (blk2 V c ⟨n + 1, hn⟩) (blk3 V c ⟨n + 1, hn⟩) (outsAt0 V c n (Nat.lt_of_succ_lt hn)).2) (ix2 p (0 : Fin 1))).trans ?_
        exact (upd_eq V c ⟨n + 1, hn⟩ (outsAt0 V c n (Nat.lt_of_succ_lt hn)).2 p).trans hstep

/-- At a last column block the output block holds the same: entry p is the accumulator of row (n / 8)·1024 + p after all eight
    column blocks, its degree. -/
theorem out_eq (c : Dev nD) (t : Fin cfg0.N) (h7 : t.val % 8 = 7) (p : Fin 1024) :
    (outsAt0 V c t.val t.isLt).1 (ix2 p (0 : Fin 1))
      = Cert.Spec.degB (arrX V c) (arrC V c) (arrR V c) (rowAt t.val t.isLt p) := by
  have h0 : ¬t.val % 8 = 0 := by omega
  have hs : (outsAt0 V c t.val t.isLt).2 (ix2 p (0 : Fin 1)) = Cert.Spec.degB (arrX V c) (arrC V c) (arrR V c) (rowAt t.val t.isLt p) :=
    (scratch_eq V c t.val t.isLt p).trans (congrArg (Cert.Spec.accB (arrX V c) (arrC V c) (arrR V c) (rowAt t.val t.isLt p)) h7)
  refine Eq.trans ?_ hs
  rw [outsAt0_C V c t h0 h7]
  dsimp only
  exact (congrFun (out_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (blk0 V c t) (blk1 V c t) (blk2 V c t) (blk3 V c t) (outsAt0 V c (t.val - 1) (Nat.lt_of_le_of_lt (Nat.sub_le _ _) t.isLt)).2) (ix2 p (0 : Fin 1))).trans
    (congrFun (sout_C c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h7) (blk0 V c t) (blk1 V c t) (blk2 V c t) (blk3 V c t) (outsAt0 V c (t.val - 1) (Nat.lt_of_le_of_lt (Nat.sub_le _ _) t.isLt)).2) (ix2 p (0 : Fin 1))).symm

end Invariant

section Final

variable (V : (c : Dev nD) → (b : Ref sig .tc) → Buf (Elt Ideal) ((c : Thread nD τ).loc b))

/-- What a last column block writes back is its block of the degree column: entry p of the block is the degree of the row
    of the whole matrix under it. -/
theorem flushed_eq (c : Dev nD) (t : Fin cfg0.N) (hf : (cfg0.win 4).flush t = true) :
    (dat0 (F := Ideal) V c).flushed 4 t
      = ((cfg0.win 4).blk t).view.read (Elt Ideal)
          (fun i => Cert.Spec.degB (V c main_arg0) (V c main_v2) (V c main_v3) (i 0)) := by
  have h7 : t.val % 8 = 7 := (flush0_4 t).mp hf
  obtain ⟨e00, e01, e10, e11, e20, e21, e30, e31, e40, e41⟩ := idx_facts t
  show (cfg0.win 4).cut (grid0.coords t) ((dat0 V c).after 4 t) = _
  rw [after0_4]
  funext j
  obtain ⟨p, z, rfl⟩ : ∃ (p : Fin 1024) (z : Fin 1), j = ix2 p z := ⟨j 0, j 1, eq_ix2 j⟩
  obtain rfl : z = 0 := Subsingleton.elim _ _
  show (outsAt0 V c t.val t.isLt).1 (ix2 p (0 : Fin 1))
    = Cert.Spec.degB (arrX V c) (arrC V c) (arrR V c) ((((cfg0.win 4).blk t).view.emb (ix2 p (0 : Fin 1))) 0)
  refine (out_eq V c t h7 p).trans ?_
  refine congrArg (Cert.Spec.degB (arrX V c) (arrC V c) (arrR V c)) (Fin.ext ?_)
  show t.val / 8 * 1024 + p.val = win0_4.index t (0 : Fin 2) * 1024 + 1 * p.val
  rw [e40]; omega

/-- An entry of the degree column is in point t's block exactly when each coordinate is in the block's range on its axis. -/
theorem mem_blk4 (t : Fin cfg0.N) (i : S8192x1.Idx) :
    i ∈ ((cfg0.win 4).blk t).view.set ↔ ∀ a : Fin 2, win0_4.index t a * S1024x1.size a ≤ (i a).val ∧ (i a).val < win0_4.index t a * S1024x1.size a + S1024x1.size a := by
  show i ∈ ((View.whole main_v4).slice (win0_4.rect t)).set ↔ _
  rw [View.set_slice_whole, Rect.mem_set_unit]
  exact Iff.rfl

end Final

end Deg

open Deg in
/-- THE DEGREE COLUMN after the degree call: entry a is the degree of row a of the blocked arrangement. Row a lies in row block
    a / 1024, whose last column block is point (a / 1024)·8 + 7; that point writes its block back. -/
theorem final0 (V : (c : Dev nD) → (b : Ref sig .tc) → Buf (Elt Ideal) ((c : Thread nD τ).loc b)) (c : Dev nD) :
    (dat0 (F := Ideal) V c).arrAt 4 cfg0.N
      = fun i => Cert.Spec.degB (V c main_arg0) (V c main_v2) (V c main_v3) (i 0) := by
  refine (dat0 (F := Ideal) V c).arrAt_eq_of_cover 4 _ (flushed_eq V c) fun i => ?_
  have hi0 : (i 0).val < 8192 := (i 0).isLt
  have hi1 : (i 1).val < 1 := (i 1).isLt
  have hN : cfg0.N = 64 := N_0
  have ht : (i 0).val / 1024 * 8 + 7 < cfg0.N := by rw [hN]; omega
  obtain ⟨e00, e01, e10, e11, e20, e21, e30, e31, e40, e41⟩ := idx_facts ⟨(i 0).val / 1024 * 8 + 7, ht⟩
  refine ⟨⟨(i 0).val / 1024 * 8 + 7, ht⟩, (flush0_4 _).mpr (by show ((i 0).val / 1024 * 8 + 7) % 8 = 7; omega), ?_⟩
  rw [mem_blk4]
  intro a
  match a with
  | ⟨0, _⟩ =>
    show win0_4.index ⟨(i 0).val / 1024 * 8 + 7, ht⟩ (0 : Fin 2) * 1024 ≤ (i 0).val ∧ (i 0).val < win0_4.index ⟨(i 0).val / 1024 * 8 + 7, ht⟩ (0 : Fin 2) * 1024 + 1024
    rw [e40]
    show ((i 0).val / 1024 * 8 + 7) / 8 * 1024 ≤ (i 0).val ∧ (i 0).val < ((i 0).val / 1024 * 8 + 7) / 8 * 1024 + 1024
    omega
  | ⟨1, _⟩ =>
    show win0_4.index ⟨(i 0).val / 1024 * 8 + 7, ht⟩ (1 : Fin 2) * 1 ≤ (i 1).val ∧ (i 1).val < win0_4.index ⟨(i 0).val / 1024 * 8 + 7, ht⟩ (1 : Fin 2) * 1 + 1
    rw [e41]
    omega

end Cert.KernelIdeal.Val

end
-- ==== Proof.KernelIdeal.Value1.lean ====
/-
  What the normalising call leaves in the result matrix, at the exact extended reals: entry (a, b) is the
  similarity of rows a and b (from the squared-norm column and row the call is handed) times the normaliser of a
  times the normaliser of b — the blocked arrangement of the specification.
-/
import proofs.«138943_j41875931136544_1_alg».proof.Proof.KernelIdeal.Region1
import proofs.«138943_j41875931136544_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

namespace Norm

/-! ## The matrix product's operand indices, axis by axis -/

theorem lhs_mm_0 (i : S1024x1024.Idx) (q : dot_S1024x128_S128x1024_S1024x1024_1_0_0_1_n_n.contr.Idx) :
    (dot_S1024x128_S128x1024_S1024x1024_1_0_0_1_n_n.lhsIdx i q 0).val = (i 0).val := by
  unfold DotDims.lhsIdx
  rw [dif_neg (show ¬(0 : Fin S1024x128.rank) ∈ dot_S1024x128_S128x1024_S1024x1024_1_0_0_1_n_n.lhsBatch by decide), dif_pos (show (0 : Fin S1024x128.rank) ∈ dot_S1024x128_S128x1024_S1024x1024_1_0_0_1_n_n.lhsNonContracting by decide)]
  rfl
theorem lhs_mm_1 (i : S1024x1024.Idx) (q : dot_S1024x128_S128x1024_S1024x1024_1_0_0_1_n_n.contr.Idx) :
    (dot_S1024x128_S128x1024_S1024x1024_1_0_0_1_n_n.lhsIdx i q 1).val = (q ⟨0, by decide⟩).val :=
  dot_S1024x128_S128x1024_S1024x1024_1_0_0_1_n_n.lhsIdx_val_of_single rfl i q
theorem rhs_mm_0 (i : S1024x1024.Idx) (q : dot_S1024x128_S128x1024_S1024x1024_1_0_0_1_n_n.contr.Idx) :
    (dot_S1024x128_S128x1024_S1024x1024_1_0_0_1_n_n.rhsIdx i q 0).val = (q ⟨0, by decide⟩).val :=
  dot_S1024x128_S128x1024_S1024x1024_1_0_0_1_n_n.rhsIdx_val_of_single rfl i q
theorem rhs_mm_1 (i : S1024x1024.Idx) (q : dot_S1024x128_S128x1024_S1024x1024_1_0_0_1_n_n.contr.Idx) :
    (dot_S1024x128_S128x1024_S1024x1024_1_0_0_1_n_n.rhsIdx i q 1).val = (i 1).val := by
  unfold DotDims.rhsIdx
  rw [dif_neg (show ¬(1 : Fin S128x1024.rank) ∈ dot_S1024x128_S128x1024_S1024x1024_1_0_0_1_n_n.rhsBatch by decide), dif_pos (show (1 : Fin S128x1024.rank) ∈ dot_S1024x128_S128x1024_S1024x1024_1_0_0_1_n_n.rhsNonContracting by decide)]
  rfl

/-- The product of a 1024×128 block with a 128×1024 one into the zero splat, at entry (p, q): the sum over the
    128 contracted positions of the products of the operands' entries. -/
theorem mm_apply (a : FVec Ideal S1024x128 .bf16) (b : FVec Ideal S128x1024 .bf16) (p q : Fin 1024) :
    matmul (F := Ideal) dot_S1024x128_S128x1024_S1024x1024_1_0_0_1_n_n none a b (constant (F := Ideal) S1024x1024 .f32 0x00000000#32) (ix2 p q)
      = ∑ k : Fin 128, a (ix2 p k) * b (ix2 k q) := by
  show FloatOps.matmul dot_S1024x128_S128x1024_S1024x1024_1_0_0_1_n_n none a b (constant (F := Ideal) S1024x1024 .f32 0x00000000#32) (ix2 p q) = _
  rw [Ideal.matmul_constant_zero_apply, ← Equiv.sum_comp (ValueIdx.contrEquiv1 dot_S1024x128_S128x1024_S1024x1024_1_0_0_1_n_n 128 rfl rfl).symm]
  refine Finset.sum_congr rfl fun k _ => ?_
  have hk := ValueIdx.contrEquiv1_symm_val dot_S1024x128_S128x1024_S1024x1024_1_0_0_1_n_n 128 rfl rfl k
  have el : dot_S1024x128_S128x1024_S1024x1024_1_0_0_1_n_n.lhsIdx (ix2 p q) ((ValueIdx.contrEquiv1 dot_S1024x128_S128x1024_S1024x1024_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S1024x128_S128x1024_S1024x1024_1_0_0_1_n_n.rhsIdx (ix2 p q) ((ValueIdx.contrEquiv1 dot_S1024x128_S128x1024_S1024x1024_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-- A column of 1024 entries spread over 1024 columns reads, at (p, q), the column's entry p. -/
theorem bcast_col_apply {α : Type} (v : S1024x1.Idx → α) (p q : Fin 1024) :
    broadcastTo S1024x1024 v broadcasts_S1024x1_S1024x1024 (ix2 p q) = v (ix2 p (0 : Fin 1)) := by
  refine broadcastTo_apply v broadcasts_S1024x1_S1024x1024 (ix2 p q) (ix2 p (0 : Fin 1)) fun ax => ?_
  match ax with
  | ⟨0, _⟩ =>
    show p.val = if (1024 : Nat) = 1 then 0 else p.val
    rw [if_neg (by decide)]
  | ⟨1, _⟩ => rfl

/-- A row of 1024 entries spread over 1024 rows reads, at (p, q), the row's entry q. -/
theorem bcast_row_apply {α : Type} (v : S1x1024.Idx → α) (p q : Fin 1024) :
    broadcastTo S1024x1024 v broadcasts_S1x1024_S1024x1024 (ix2 p q) = v (ix2 (0 : Fin 1) q) :=
  broadcastTo_1b_ab_apply v broadcasts_S1x1024_S1024x1024 p q

/-- A 1024×128 block transposed reads, at (k, q), the block at (q, k). -/
theorem tr_apply {α : Type} (x : S1024x128.Idx → α) (k : Fin 128) (q : Fin 1024) :
    transpose S128x1024 [1, 0] x transposes_S1024x128_p1_0_S128x1024 (ix2 k q) = x (ix2 q k) :=
  transpose_ix2_apply x transposes_S1024x128_p1_0_S128x1024 k q

/-- The product of a block with the transpose of another, at entry (p, q): the inner product of row p of the
    first with row q of the second. -/
theorem mmT_apply (a b : FVec Ideal S1024x128 .bf16) (p q : Fin 1024) :
    matmul (F := Ideal) dot_S1024x128_S128x1024_S1024x1024_1_0_0_1_n_n none a
        (transpose S128x1024 [1, 0] b transposes_S1024x128_p1_0_S128x1024) (constant (F := Ideal) S1024x1024 .f32 0x00000000#32) (ix2 p q)
      = ∑ k : Fin 128, a (ix2 p k) * b (ix2 q k) := by
  rw [mm_apply]
  exact Finset.sum_congr rfl fun k _ => congrArg (a (ix2 p k) * ·) (tr_apply b k q)

/-- The exponential of a vector at an entry is the exponential of the entry. -/
theorem exp_apply {s : Shape} {φ : FTy} (a : FVec Ideal s φ) (i : s.Idx) : exp a i = Ideal.exp (a i) := rfl

/-- THE PAYLOAD AT AN ENTRY (p, q) of the output block: the exponential of the clamped squared distance of row p of
    the first data block and row q of the second (the two squared norms added, less twice the inner product, clamped
    below at zero) times -1/512, times entry p of the normaliser column, times entry q of the normaliser row. The
    narrowing of the data blocks before the product is the identity on extended reals. -/
theorem pay_apply (x0 x1 : FVec Ideal S1024x128 .f32) (x2 x4 : FVec Ideal S1024x1 .f32) (x3 x5 : FVec Ideal S1x1024 .f32)
    (p q : Fin 1024) :
    k1_pay1 (F := Ideal) x0 x1 x2 x3 x4 x5 (ix2 p q)
      = Ideal.exp (max ((x2 (ix2 p (0 : Fin 1)) + x3 (ix2 (0 : Fin 1) q))
            - Ideal.ofBits .f32 0x40000000#32 * ∑ k : Fin 128, x0 (ix2 p k) * x1 (ix2 q k))
          (Ideal.ofBits .f32 0x00000000#32) * Ideal.ofBits .f32 0xBB000000#32)
        * x4 (ix2 p (0 : Fin 1)) * x5 (ix2 (0 : Fin 1) q) := by
  unfold k1_pay1
  simp only [shapeCast_self, mulf_apply, addf_apply, subf_apply, maximumf_apply, broadcast_apply, bcast_col_apply, bcast_row_apply, exp_apply]
  rw [mmT_apply]
  rfl

/-- The payload at entry (p, q) of a block is the blocked arrangement at entry (a, b) of the whole matrix, once
    each of the six loaded blocks reads, at the coordinates the payload uses, the whole array at the matching place. -/
theorem pay_blocked (X : Cert.Spec.Mat) (sc : Cert.Spec.Col) (sr : Cert.Spec.Row) (dc : Cert.Spec.Col) (dr : Cert.Spec.Row)
    (x0 x1 : FVec Ideal S1024x128 .f32) (x2 x4 : FVec Ideal S1024x1 .f32) (x3 x5 : FVec Ideal S1x1024 .f32)
    (a b : Fin 8192) (p q : Fin 1024)
    (h0 : ∀ k : Fin 128, x0 (ix2 p k) = X (ix2 a k))
    (h1 : ∀ k : Fin 128, x1 (ix2 q k) = X (ix2 b k))
    (h2 : x2 (ix2 p (0 : Fin 1)) = sc (ix2 a (0 : Fin 1)))
    (h3 : x3 (ix2 (0 : Fin 1) q) = sr (ix2 (0 : Fin 1) b))
    (h4 : x4 (ix2 p (0 : Fin 1)) = dc (ix2 a (0 : Fin 1)))
    (h5 : x5 (ix2 (0 : Fin 1) q) = dr (ix2 (0 : Fin 1) b)) :
    k1_pay1 (F := Ideal) x0 x1 x2 x3 x4 x5 (ix2 p q) = Cert.Spec.blocked X sc sr dc dr (ix2 a b) := by
  have hs : ∑ k : Fin 128, x0 (ix2 p k) * x1 (ix2 q k) = ∑ k : Fin 128, X (ix2 a k) * X (ix2 b k) :=
    Finset.sum_congr rfl fun k _ => by rw [h0 k, h1 k]
  rw [pay_apply, hs, h2, h3, h4, h5]
  rfl

/-! ## From the blocks to the matrix -/

/-- The index maps, decided over the 64 grid points: the row blocks of the data, the squared-norm column and the
    normaliser column move with the output block's row index; the second row block of the data, the squared-norm row
    and the normaliser row with its column index; both stay below 8. -/
theorem idx_facts1 : ∀ t : Fin cfg1.N,
    win1_0.index t (0 : Fin 2) = win1_6.index t (0 : Fin 2) ∧ win1_0.index t (1 : Fin 2) = 0
    ∧ win1_1.index t (0 : Fin 2) = win1_6.index t (1 : Fin 2) ∧ win1_1.index t (1 : Fin 2) = 0
    ∧ win1_2.index t (0 : Fin 2) = win1_6.index t (0 : Fin 2) ∧ win1_2.index t (1 : Fin 2) = 0
    ∧ win1_3.index t (0 : Fin 2) = 0 ∧ win1_3.index t (1 : Fin 2) = win1_6.index t (1 : Fin 2)
    ∧ win1_4.index t (0 : Fin 2) = win1_6.index t (0 : Fin 2) ∧ win1_4.index t (1 : Fin 2) = 0
    ∧ win1_5.index t (0 : Fin 2) = 0 ∧ win1_5.index t (1 : Fin 2) = win1_6.index t (1 : Fin 2)
    ∧ win1_6.index t (0 : Fin 2) ≤ 7 ∧ win1_6.index t (1 : Fin 2) ≤ 7 :=
  (by decide +kernel : ∀ t : Fin grid1.N, _)

/-- Every one of the 8 × 8 output blocks is some point's. -/
theorem idx_onto1 : ∀ (q0 q1 : Fin 8), ∃ t : Fin cfg1.N, win1_6.index t = ![q0.val, q1.val] :=
  (by decide +kernel : ∀ (q0 q1 : Fin 8), ∃ t : Fin grid1.N, win1_6.index t = ![q0.val, q1.val])

section
variable (V : (c : Dev nD) → (b : Ref sig .tc) → Buf (Elt Ideal) ((c : Thread nD τ).loc b))

/-- The blocked arrangement of the arrays the call is handed. -/
abbrev G1 (c : Dev nD) : Cert.Spec.Sq :=
  Cert.Spec.blocked (V c main_arg0) (V c main_v2) (V c main_v3) (V c main_v7) (V c main_v8)

/-- WHAT POINT t WRITES BACK is block t of the blocked arrangement. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 (F := Ideal) V c).after 6 t) = _
  rw [after1_6, out1_6_eq]
  obtain ⟨e00, e01, e10, e11, e20, e21, e30, e31, e40, e41, e50, e51, b0, b1⟩ := idx_facts1 t
  funext j
  obtain ⟨p, q, rfl⟩ : ∃ (p q : Fin 1024), j = ix2 p q := ⟨j 0, j 1, eq_ix2 j⟩
  have hp : p.val < 1024 := p.isLt
  have hq : q.val < 1024 := q.isLt
  show k1_pay1 (F := Ideal) (iblk1 V c 0 t) (iblk1 V c 1 t) (iblk1 V c 2 t) (iblk1 V c 3 t) (iblk1 V c 4 t) (iblk1 V c 5 t) (ix2 p q)
      = G1 V c (((cfg1.win 6).blk t).view.emb (ix2 p q))
  refine (pay_blocked (V c main_arg0) (V c main_v2) (V c main_v3) (V c main_v7) (V c main_v8) _ _ _ _ _ _
    ⟨win1_6.index t (0 : Fin 2) * 1024 + p.val, by omega⟩ ⟨win1_6.index t (1 : Fin 2) * 1024 + q.val, by omega⟩ p q
    ?_ ?_ ?_ ?_ ?_ ?_).trans ?_
  · intro k
    show V c main_arg0 (((cfg1.win 0).blk t).view.emb (ix2 p k)) = V c main_arg0 _
    refine congrArg (V c main_arg0) (funext fun a => Fin.ext ?_)
    match a with
    | ⟨0, _⟩ => show win1_0.index t (0 : Fin 2) * 1024 + 1 * p.val = win1_6.index t (0 : Fin 2) * 1024 + p.val; omega
    | ⟨1, _⟩ => show win1_0.index t (1 : Fin 2) * 128 + 1 * k.val = k.val; omega
  · intro k
    show V c main_arg0 (((cfg1.win 1).blk t).view.emb (ix2 q k)) = V c main_arg0 _
    refine congrArg (V c main_arg0) (funext fun a => Fin.ext ?_)
    match a with
    | ⟨0, _⟩ => show win1_1.index t (0 : Fin 2) * 1024 + 1 * q.val = win1_6.index t (1 : Fin 2) * 1024 + q.val; omega
    | ⟨1, _⟩ => show win1_1.index t (1 : Fin 2) * 128 + 1 * k.val = k.val; omega
  · show V c main_v2 (((cfg1.win 2).blk t).view.emb (ix2 p (0 : Fin 1))) = V c main_v2 _
    refine congrArg (V c main_v2) (funext fun a => Fin.ext ?_)
    match a with
    | ⟨0, _⟩ => show win1_2.index t (0 : Fin 2) * 1024 + 1 * p.val = win1_6.index t (0 : Fin 2) * 1024 + p.val; omega
    | ⟨1, _⟩ => show win1_2.index t (1 : Fin 2) * 1 + 1 * 0 = 0; omega
  · show V c main_v3 (((cfg1.win 3).blk t).view.emb (ix2 (0 : Fin 1) q)) = V c main_v3 _
    refine congrArg (V c main_v3) (funext fun a => Fin.ext ?_)
    match a with
    | ⟨0, _⟩ => show win1_3.index t (0 : Fin 2) * 1 + 1 * 0 = 0; omega
    | ⟨1, _⟩ => show win1_3.index t (1 : Fin 2) * 1024 + 1 * q.val = win1_6.index t (1 : Fin 2) * 1024 + q.val; omega
  · show V c main_v7 (((cfg1.win 4).blk t).view.emb (ix2 p (0 : Fin 1))) = V c main_v7 _
    refine congrArg (V c main_v7) (funext fun a => Fin.ext ?_)
    match a with
    | ⟨0, _⟩ => show win1_4.index t (0 : Fin 2) * 1024 + 1 * p.val = win1_6.index t (0 : Fin 2) * 1024 + p.val; omega
    | ⟨1, _⟩ => show win1_4.index t (1 : Fin 2) * 1 + 1 * 0 = 0; omega
  · show V c main_v8 (((cfg1.win 5).blk t).view.emb (ix2 (0 : Fin 1) q)) = V c main_v8 _
    refine congrArg (V c main_v8) (funext fun a => Fin.ext ?_)
    match a with
    | ⟨0, _⟩ => show win1_5.index t (0 : Fin 2) * 1 + 1 * 0 = 0; omega
    | ⟨1, _⟩ => show win1_5.index t (1 : Fin 2) * 1024 + 1 * q.val = win1_6.index t (1 : Fin 2) * 1024 + q.val; omega
  · refine congrArg (G1 V c) (funext fun a => Fin.ext ?_)
    match a with
    | ⟨0, _⟩ => show win1_6.index t (0 : Fin 2) * 1024 + p.val = win1_6.index t (0 : Fin 2) * 1024 + 1 * p.val; omega
    | ⟨1, _⟩ => show win1_6.index t (1 : Fin 2) * 1024 + q.val = win1_6.index t (1 : Fin 2) * 1024 + 1 * q.val; omega

/-- An entry of the matrix is in point t's block iff each coordinate is in the block's range on its axis. -/
theorem mem_blk1 (t : Fin cfg1.N) (i : S8192x8192.Idx) :
    i ∈ ((cfg1.win 6).blk t).view.set ↔ ∀ a : Fin 2, win1_6.index t a * S1024x1024.size a ≤ (i a).val
      ∧ (i a).val < win1_6.index t a * S1024x1024.size a + S1024x1024.size a := by
  show i ∈ ((View.whole main_v9).slice (win1_6.rect t)).set ↔ _
  rw [View.set_slice_whole, Rect.mem_set_unit]
  exact Iff.rfl

/-- Every entry (a, b) of the matrix is in the block of the point whose block indices are (a / 1024, b / 1024), and
    every point writes its block back. -/
theorem cover1 (i : S8192x8192.Idx) :
    ∃ t : Fin cfg1.N, (cfg1.win 6).flush t = true ∧ i ∈ ((cfg1.win 6).blk t).view.set := by
  have hi0 : (i 0).val < 8192 := (i 0).isLt
  have hi1 : (i 1).val < 8192 := (i 1).isLt
  obtain ⟨t, ht⟩ := idx_onto1 ⟨(i 0).val / 1024, by omega⟩ ⟨(i 1).val / 1024, by omega⟩
  have q0 : win1_6.index t (0 : Fin 2) = (i 0).val / 1024 := congrFun ht 0
  have q1 : win1_6.index t (1 : Fin 2) = (i 1).val / 1024 := congrFun ht 1
  refine ⟨t, flush1_6 t, ?_⟩
  rw [mem_blk1]
  intro a
  match a with
  | ⟨0, _⟩ => show win1_6.index t (0 : Fin 2) * 1024 ≤ (i 0).val ∧ (i 0).val < win1_6.index t (0 : Fin 2) * 1024 + 1024; omega
  | ⟨1, _⟩ => show win1_6.index t (1 : Fin 2) * 1024 ≤ (i 1).val ∧ (i 1).val < win1_6.index t (1 : Fin 2) * 1024 + 1024; omega

end

end Norm

/-- THE RESULT MATRIX after the call: the blocked arrangement of the arrays the call is handed. -/
theorem final1 (V : (c : Dev nD) → (b : Ref sig .tc) → Buf (Elt Ideal) ((c : Thread nD τ).loc b)) (c : Dev nD) :
    (dat1 (F := Ideal) V c).arrAt 6 cfg1.N
      = Cert.Spec.blocked (V c main_arg0) (V c main_v2) (V c main_v3) (V c main_v7) (V c main_v8) :=
  (dat1 (F := Ideal) V c).arrAt_eq_of_cover 6 (Norm.G1 V c) (fun t _ => Norm.flushed1_eq V c t) Norm.cover1

end Cert.KernelIdeal.Val

end
-- ==== Proof.KernelIdeal.Bridge.lean ====
/-
  From the launch memory to the specification: the first host stretch leaves the squared norms of the rows as a
  column and as a row; the degree call leaves the accumulated degrees; the second host stretch leaves their
  inverse square roots as a column and as a row; so what the normalising call leaves is the blocked arrangement
  at exactly those arrays, which is the whole-array result.
-/
import proofs.«138943_j41875931136544_1_alg».proof.Proof.KernelIdeal.Vals
import proofs.«138943_j41875931136544_1_alg».proof.Proof.KernelIdeal.Value0
import proofs.«138943_j41875931136544_1_alg».proof.Proof.KernelIdeal.Value1
import Idealize.ShloMosaic.Lib.StableHlo.Run
import proofs.«138943_j41875931136544_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Frm

namespace Bridge

/-! ## The layout changes read at an index -/

/-- A vector of 8192 entries laid out as a column reads entry a at (a, 0). -/
theorem col_of_vec (v : S8192.Idx → EReal) (a : Fin 8192) :
    shapeCast S8192x1 v shapeCasts_S8192_S8192x1 (ix2 a 0) = v (ix1 a) :=
  shapeCast_apply v shapeCasts_S8192_S8192x1 (ix2 a 0) (ix1 a) (by
    rw [Shape.rowMajor_val_one, Shape.rowMajor_val_two]; show a.val = a.val * 1 + 0; omega)

/-- A vector of 8192 entries laid out as a row reads entry b at (0, b). -/
theorem row_of_vec (v : S8192.Idx → EReal) (b : Fin 8192) :
    shapeCast S1x8192 v shapeCasts_S8192_S1x8192 (ix2 0 b) = v (ix1 b) :=
  shapeCast_apply v shapeCasts_S8192_S1x8192 (ix2 0 b) (ix1 b) (by
    rw [Shape.rowMajor_val_one, Shape.rowMajor_val_two]; show b.val = 0 * 8192 + b.val; omega)

/-- A column of 8192 entries laid out as a row reads entry (b, 0) at (0, b). -/
theorem row_of_col (w : S8192x1.Idx → EReal) (b : Fin 8192) :
    shapeCast S1x8192 w shapeCasts_S8192x1_S1x8192 (ix2 0 b) = w (ix2 b 0) :=
  shapeCast_apply w shapeCasts_S8192x1_S1x8192 (ix2 0 b) (ix2 b 0) (by
    rw [Shape.rowMajor_val_two, Shape.rowMajor_val_two]; show b.val * 1 + 0 = 0 * 8192 + b.val; omega)

/-! ## The host's arithmetic read at an index -/

/-- The sum along a row of the entrywise squares, started from the zero word, is the squared norm of the row. -/
theorem sumsq_apply (X : S8192x128.Idx → EReal) (a : Fin 8192) :
    Host.reduceAdd (F := Ideal) (mulf X X) (constant (F := Ideal) S_ .f32 0x00000000#32) reducesTo_S8192x128_S8192_d1 h_S_ (ix1 a)
      = Cert.Spec.sqn X a := by
  unfold Cert.Spec.sqn Cert.Spec.zero
  simp only [Host.reduceAdd, Ideal.hostReduceAdd_def]
  rw [Ideal.hostReduceAdd_single reducesTo_S8192x128_S8192_d1 (by decide)]
  refine congrArg₂ (· + ·) rfl (Finset.sum_congr rfl fun k _ => ?_)
  have e : (Shape.Reduces.lift (by decide : S8192x128.Reduces [1] S8192) (ix1 a) k) = ix2 a k :=
    funext fun d => Fin.ext (by match d with | ⟨0, _⟩ => rfl | ⟨1, _⟩ => rfl)
  exact congrArg (fun i => X i * X i) e

section Arrays

variable (m : (ℓ : Loc nD τ sig) → Buf (Elt Ideal) ℓ) (c : Dev nD)

/-! ## What no host operation and no call changes -/

/-- The first host stretch does not write the data matrix. -/
theorem T1_arg0 : T1 (F := Ideal) m c main_arg0 = m ((c : Thread nD τ).loc main_arg0) :=
  (StableHlo.after_of_writes_sub hostOps0 _ hostOps0_writes (by decide)).trans rfl

/-- Up to the normalising call a reference that neither the second host stretch nor the degree call writes
    holds what the first host stretch left. -/
theorem T3_of (r : Ref sig .tc) (h1 : r ∉ hostOps1_W) (h4 : r ≠ main_v4) : T3 (F := Ideal) m c r = T1 m c r :=
  (StableHlo.after_of_writes_sub hostOps1 _ hostOps1_writes h1).trans (U2_of_ne m c r h4)

theorem T3_arg0 : T3 (F := Ideal) m c main_arg0 = m ((c : Thread nD τ).loc main_arg0) :=
  (T3_of m c main_arg0 (by decide) (by decide)).trans (T1_arg0 m c)
theorem T3_v2 : T3 (F := Ideal) m c main_v2 = T1 m c main_v2 := T3_of m c main_v2 (by decide) (by decide)
theorem T3_v3 : T3 (F := Ideal) m c main_v3 = T1 m c main_v3 := T3_of m c main_v3 (by decide) (by decide)

/-! ## What the host stretches computed -/

/-- The squared-norm column, as the operations' term. -/
theorem T1_v2_eq : (T1 (F := Ideal) m c main_v2 : S8192x1.Idx → EReal)
    = shapeCast S8192x1 (Host.reduceAdd (F := Ideal) (mulf (m ((c : Thread nD τ).loc main_arg0)) (m ((c : Thread nD τ).loc main_arg0)))
        (constant (F := Ideal) S_ .f32 0x00000000#32) reducesTo_S8192x128_S8192_d1 h_S_) shapeCasts_S8192_S8192x1 := by
  dsimp only [T1, U1, Gen.hostOps0]; after_results; rfl

/-- The squared-norm row, as the operations' term. -/
theorem T1_v3_eq : (T1 (F := Ideal) m c main_v3 : S1x8192.Idx → EReal)
    = shapeCast S1x8192 (Host.reduceAdd (F := Ideal) (mulf (m ((c : Thread nD τ).loc main_arg0)) (m ((c : Thread nD τ).loc main_arg0)))
        (constant (F := Ideal) S_ .f32 0x00000000#32) reducesTo_S8192x128_S8192_d1 h_S_) shapeCasts_S8192_S1x8192 := by
  dsimp only [T1, U1, Gen.hostOps0]; after_results; rfl

/-- The normaliser column, as the operations' term over the degree column. -/
theorem T3_v7_eq : (T3 (F := Ideal) m c main_v7 : S8192x1.Idx → EReal)
    = Host.divf (F := Ideal) (broadcastInDim S8192x1 ![] bcast_S_S8192x1 (constant (F := Ideal) S_ .f32 0x3F800000#32))
        (Host.sqrt (F := Ideal) (degArr m c)) := by
  rw [← U2_v4 m c]
  dsimp only [T3, U3, Gen.hostOps1]; after_results

/-- The normaliser row is the normaliser column laid out as a row. -/
theorem T3_v8_eq : (T3 (F := Ideal) m c main_v8 : S1x8192.Idx → EReal)
    = shapeCast S1x8192 (T3 (F := Ideal) m c main_v7 : S8192x1.Idx → EReal) shapeCasts_S8192x1_S1x8192 := by
  rw [T3_v7_eq m c, ← U2_v4 m c]
  dsimp only [T3, U3, Gen.hostOps1]; after_results; rfl

/-! ## The four arrays the law asks about, read at an index -/

/-- Entry (a, 0) of the squared-norm column is the squared norm of row a. -/
theorem sc_apply (a : Fin 8192) :
    (T1 (F := Ideal) m c main_v2 : S8192x1.Idx → EReal) (ix2 a 0) = Cert.Spec.sqn (m ((c : Thread nD τ).loc main_arg0)) a := by
  rw [T1_v2_eq m c, col_of_vec, sumsq_apply]

/-- Entry (0, b) of the squared-norm row is the squared norm of row b. -/
theorem sr_apply (b : Fin 8192) :
    (T1 (F := Ideal) m c main_v3 : S1x8192.Idx → EReal) (ix2 0 b) = Cert.Spec.sqn (m ((c : Thread nD τ).loc main_arg0)) b := by
  rw [T1_v3_eq m c, row_of_vec, sumsq_apply]

/-- The degree column: entry (a, 0) is the accumulated degree of row a, over the launched matrix and the squared norms
    the first host stretch left. -/
theorem deg_apply (a : Fin 8192) :
    (degArr (F := Ideal) m c : S8192x1.Idx → EReal) (ix2 a 0)
      = Cert.Spec.degB (m ((c : Thread nD τ).loc main_arg0)) (T1 m c main_v2) (T1 m c main_v3) a := by
  unfold degArr
  rw [final0 (T1 m) c, T1_arg0 m c]
  rfl

/-- Entry (a, 0) of the normaliser column is the normaliser formed from the degree of row a. -/
theorem dc_apply (a : Fin 8192) :
    (T3 (F := Ideal) m c main_v7 : S8192x1.Idx → EReal) (ix2 a 0)
      = Cert.Spec.normOf (Cert.Spec.degB (m ((c : Thread nD τ).loc main_arg0)) (T1 m c main_v2) (T1 m c main_v3) a) := by
  rw [T3_v7_eq m c]
  show Ideal.div (Ideal.ofBits .f32 0x3F800000#32) (Ideal.sqrt ((degArr (F := Ideal) m c : S8192x1.Idx → EReal) (ix2 a 0))) = _
  rw [deg_apply m c a]
  rfl

/-- Entry (0, b) of the normaliser row is the normaliser formed from the degree of row b. -/
theorem dr_apply (b : Fin 8192) :
    (T3 (F := Ideal) m c main_v8 : S1x8192.Idx → EReal) (ix2 0 b)
      = Cert.Spec.normOf (Cert.Spec.degB (m ((c : Thread nD τ).loc main_arg0)) (T1 m c main_v2) (T1 m c main_v3) b) := by
  rw [T3_v8_eq m c, row_of_col, dc_apply m c b]

end Arrays

end Bridge

open Bridge

/-- What the normalising call leaves in the result matrix is the whole-array result at the launched matrix: the call
    leaves the blocked arrangement at the arrays it is handed, those arrays are the squared norms and the normalisers
    of the accumulated degrees, and the two arrangements agree. -/
theorem res_eq (m : (ℓ : Loc nD τ sig) → Buf (Elt Ideal) ℓ) (c : Dev nD) :
    resArr (F := Ideal) m c = Cert.Spec.whole (m ((c : Thread nD τ).loc main_arg0)) := by
  unfold resArr
  rw [final1 (T3 m) c, T3_arg0 m c, T3_v2 m c, T3_v3 m c]
  exact Cert.Spec.blocked_eq_whole _ _ _ _ _ (sc_apply m c) (sr_apply m c) (dc_apply m c) (dr_apply m c)

end Cert.KernelIdeal.Val

end
-- ==== Proof.RefValue.lean ====
/-
  The reference program, read one operation at a time, is the whole-array arrangement of the specification.
  Its stages, at coordinates: the squared norm of a row is the sum of the squares of its entries started from the
  zero word; the Gram entry (a, b) is the contraction of row a of the data against column b of its transpose, which
  is row b of the data; the similarity is the exponential of the clamped distance, negated and divided by the word
  512; the degree of an index is the sum down its column started from the zero word; the normaliser is the word 1
  divided by the square root of the degree; and the result at (a, b) is the similarity times the product of the
  normalisers of a and of b. Each stage lemma below reads the program's own description of that operation at a
  coordinate and names what it finds in the specification's words.
-/
import proofs.«138943_j41875931136544_1_alg».proof.Proof.Gen.ReferenceIdeal.Read
import proofs.«138943_j41875931136544_1_alg».proof.Proof.Spec

noncomputable section

open scoped BigOperators

namespace Cert.RefValue

open Cert.ReferenceIdeal Cert.ReferenceIdeal.Gen Cert.ReferenceIdeal.Read Cert.Spec
open Idealize.ShloMosaic Idealize.ShloMosaic.ValueIdx

/-- The data matrix, typed as the program types its argument. -/
abbrev Arg : Type := (⟨S8192x128, .f32⟩ : BufTy).Contents (Elt Ideal)

/-! ## Where each layout operation reads, at coordinates -/

/-- The row sum of row a reads the entries (a, k). -/
theorem idx_rowsum (a : Fin 8192) (k : Fin 128) : idx_main_v1 (ix1 a) k = ix2 a k :=
  funext fun d => Fin.ext (by match d with | ⟨0, _⟩ => rfl | ⟨1, _⟩ => rfl)

/-- The column of squared norms spread over a square reads index a at (a, b). -/
theorem idx_col (a b : Fin 8192) : idx_main_v2 (idx_main_v4 (ix2 a b)) = ix1 a :=
  funext fun d => Fin.ext (by match d with | ⟨0, _⟩ => rfl)

/-- The row of squared norms spread over a square reads index b at (a, b). -/
theorem idx_row (a b : Fin 8192) : idx_main_v3 (idx_main_v5 (ix2 a b)) = ix1 b :=
  funext fun d => Fin.ext (by match d with | ⟨0, _⟩ => rfl)

/-- The contraction's left operand at (a, b), term k, is the entry (a, k). -/
theorem idx_lhs (a b : Fin 8192) (k : Fin 128) : lidx_main_v8 (ix2 a b) k = ix2 a k :=
  funext fun d => Fin.ext (by match d with | ⟨0, _⟩ => rfl | ⟨1, _⟩ => rfl)

/-- The contraction's right operand at (a, b), term k, is the transpose read at (k, b): the entry (b, k). -/
theorem idx_rhs (a b : Fin 8192) (k : Fin 128) : idx_main_v7 (ridx_main_v8 (ix2 a b) k) = ix2 b k :=
  funext fun d => Fin.ext (by match d with | ⟨0, _⟩ => rfl | ⟨1, _⟩ => rfl)

/-- The column sum of column b reads the entries (k, b). -/
theorem idx_colsum (b : Fin 8192) (k : Fin 8192) : idx_main_v18 (ix1 b) k = ix2 k b :=
  funext fun d => Fin.ext (by match d with | ⟨0, _⟩ => rfl | ⟨1, _⟩ => rfl)

/-- The column of normalisers spread over a square reads index a at (a, b). -/
theorem idx_ncol (a b : Fin 8192) : idx_main_v22 (idx_main_v24 (ix2 a b)) = ix1 a :=
  funext fun d => Fin.ext (by match d with | ⟨0, _⟩ => rfl)

/-- The row of normalisers spread over a square reads index b at (a, b). -/
theorem idx_nrow (a b : Fin 8192) : idx_main_v23 (idx_main_v25 (ix2 a b)) = ix1 b :=
  funext fun d => Fin.ext (by match d with | ⟨0, _⟩ => rfl)

/-! ## The stages -/

/-- The row sum of squares from the zero word is the squared norm. -/
theorem sqn_at (x0 : Arg) (a : Fin 8192) : val_main_v1 (F := Ideal) x0 (ix1 a) = sqn x0 a := by
  rw [val_main_v1_apply]
  simp only [val_main_cst_apply, val_main_v0_apply, idx_rowsum, Ideal.ofBits_def, Ideal.mulf_def]
  rfl

/-- The sum of the spread column and the spread row is the sum of the two squared norms. -/
theorem sqsum_at (x0 : Arg) (a b : Fin 8192) : val_main_v6 (F := Ideal) x0 (ix2 a b) = sqn x0 a + sqn x0 b := by
  rw [val_main_v6_apply, val_main_v4_apply, val_main_v5_apply, val_main_v2_apply, val_main_v3_apply, idx_col, idx_row,
    sqn_at, sqn_at]
  rfl

/-- The contraction against the transpose is the inner product of two rows. -/
theorem dot_at (x0 : Arg) (a b : Fin 8192) : val_main_v8 (F := Ideal) x0 (ix2 a b) = dot x0 a b := by
  rw [val_main_v8_apply]
  simp only [val_main_v7_apply, idx_lhs, idx_rhs]
  rfl

/-- The exponential of the clamped distance, negated and divided by the word 512, is the similarity. -/
theorem sim_at (x0 : Arg) (a b : Fin 8192) : val_main_v17 (F := Ideal) x0 (ix2 a b) = simW x0 a b := by
  rw [val_main_v17_apply, val_main_v16_apply, val_main_v14_apply, val_main_v13_apply, val_main_v11_apply,
    val_main_v10_apply, val_main_v9_apply, val_main_v12_apply, val_main_v15_apply, val_main_cst_0_apply,
    val_main_cst_1_apply, val_main_cst_2_apply, sqsum_at, dot_at]
  simp only [Ideal.ofBits_def, Ideal.mulf_def, Ideal.subf_def, Ideal.maximumf_def, Ideal.hostNegf_def, Ideal.negf_def,
    Ideal.hostDivf_def, Ideal.hostUnary_exp_def]
  rfl

/-- The column sum of the similarities from the zero word is the degree. -/
theorem deg_at (x0 : Arg) (b : Fin 8192) : val_main_v18 (F := Ideal) x0 (ix1 b) = degW x0 b := by
  rw [val_main_v18_apply]
  simp only [val_main_cst_3_apply, idx_colsum, sim_at, Ideal.ofBits_def]
  rfl

/-- The word 1 divided by the square root of the degree is the normaliser. -/
theorem norm_at (x0 : Arg) (a : Fin 8192) : val_main_v21 (F := Ideal) x0 (ix1 a) = normW x0 a := by
  rw [val_main_v21_apply, val_main_v20_apply, val_main_v19_apply, val_main_cst_4_apply, deg_at]
  simp only [Ideal.ofBits_def, Ideal.hostDivf_def, Ideal.hostUnary_sqrt_def]
  rfl

/-! ## The result -/

/-- The reference program's result is the whole-array arrangement. -/
theorem ref_is_whole (x0 : (⟨Cert.ReferenceIdeal.S8192x128, .f32⟩ : BufTy).Contents (Elt Ideal)) :
    Cert.ReferenceIdeal.Read.val_main_v27 (F := Ideal) x0 = Cert.Spec.whole x0 := by
  funext i
  obtain ⟨a, b, rfl⟩ : ∃ (a : Fin 8192) (b : Fin 8192), i = ix2 a b := ⟨i 0, i 1, eq_ix2 i⟩
  rw [val_main_v27_apply, val_main_v26_apply, val_main_v24_apply, val_main_v25_apply, val_main_v22_apply,
    val_main_v23_apply, idx_ncol, idx_nrow, sim_at, norm_at, norm_at]
  simp only [Ideal.mulf_def]
  rfl

end Cert.RefValue

end
-- ==== Proof.lean ====
/-
  The certificate's claim. Both programs compute, from a data matrix X of 8192 rows, the Gaussian similarity
  matrix E(a, b) = exp(-max(|X_a|² + |X_b|² - 2·X_a·X_b, 0) / 512) normalised on both sides by the inverse square
  roots of its degrees. The kernel does it in two calls over an 8 × 8 grid of 1024 × 1024 blocks: the first
  accumulates the ROW sums of E block by block into a scratch column and writes each row block's degrees out once,
  the second recomputes each block of E and multiplies the two normalisers in one after the other. The reference
  computes E whole, takes its COLUMN sums, and multiplies the normalisers together first. At the exact extended
  reals the two agree: E is symmetric (so row sums are column sums), a sum may be taken block by block, the
  product with -1/512 is the quotient of the negation by 512, and multiplication is associative — none of which
  needs the inputs finite, so the precondition is never opened.

  The frames of the two printed kernel programs are one run each (the several-regions launch over the two
  calls' proof data), stated with the result matrix named; the reference's frame is its generated run. The
  idealization rewrote nothing, so `preserves` is trivial.
-/
import proofs.«138943_j41875931136544_1_alg».proof.Defs
import proofs.«138943_j41875931136544_1_alg».proof.Proof.Gen.Kernel
import proofs.«138943_j41875931136544_1_alg».proof.Proof.Gen.KernelIdeal
import proofs.«138943_j41875931136544_1_alg».proof.Proof.Gen.ReferenceIdeal
import proofs.«138943_j41875931136544_1_alg».proof.Proof.Gen.Pre_finite_inputs
import proofs.«138943_j41875931136544_1_alg».proof.Proof.Gen.ReferenceIdeal.Run
import proofs.«138943_j41875931136544_1_alg».proof.Proof.Gen.ReferenceIdeal.Read
import proofs.«138943_j41875931136544_1_alg».proof.Proof.Kernel.Launch
import proofs.«138943_j41875931136544_1_alg».proof.Proof.KernelIdeal.Launch
import proofs.«138943_j41875931136544_1_alg».proof.Proof.KernelIdeal.Bridge
import proofs.«138943_j41875931136544_1_alg».proof.Proof.RefValue
import Idealize.ShloMosaic.Adequacy
import Idealize.ShloMosaic.Init

noncomputable section

namespace Cert.Proof

open Idealize.ShloMosaic Idealize.SL.Sem

/-- The word-level kernel program runs and leaves its argument as launched: its run, the result dropped. -/
theorem frame_k : @Cert.frame_Kernel Cert.Kernel.Gen.facts Cert.Pre_finite_inputs.Gen.facts := fun m ρ _ =>
  (θ_run Cert.Kernel.defs _ _).mono (fun _ h c => (h c).2) (Cert.Kernel.Frm.run_main (F := Bits) m ρ)

/-- The idealized kernel program likewise. -/
theorem frame_ki : @Cert.frame_KernelIdeal Cert.KernelIdeal.Gen.facts Cert.Pre_finite_inputs.Gen.facts := fun m ρ _ =>
  (θ_run Cert.KernelIdeal.defs _ _).mono (fun _ h c => (h c).2) (Cert.KernelIdeal.Frm.run_main (F := Ideal) m ρ)

/-- The reference's frame is its run with the result dropped. -/
theorem frame_ri : @Cert.frame_ReferenceIdeal Cert.ReferenceIdeal.Gen.facts Cert.Pre_finite_inputs.Gen.facts := fun m ρ _ =>
  (θ_run Cert.ReferenceIdeal.defs _ _).mono (fun _ h c => (h c).2) (Cert.ReferenceIdeal.Value.run (F := Ideal) m ρ)

/-- From memories agreeing on the data matrix both programs end with the whole-array result of the specification:
    the kernel by its run and the reading of its two calls and two host stretches, the reference by its run and the
    reading of its operations. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.KernelIdeal.Frm.resArr (F := Ideal) m c, Cert.KernelIdeal.Frm.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, Cert.RefValue.ref_is_whole, hagree c]
  exact (Cert.KernelIdeal.Val.res_eq m c).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
